-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x2048 : Shape := ⟨2, ![1024, 2048]⟩
abbrev S1024 : Shape := ⟨1, ![1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part4 {F : FTy → Type} [FloatOps F] (main_arg14 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  main_v73

def fn_part3 {F : FTy → Type} [FloatOps F] (main_arg11 : FVec F S1024x1024 .f32) (main_arg12 : FVec F S1024 .f32) (main_arg13 : FVec F S1024x1024 .f32) (main_arg14 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_v63 main_v67

def fn_part2 {F : FTy → Type} [FloatOps F] (main_arg7 : FVec F S1024x2048 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_v33 : IVec S_ 1) : IVec S_ 1 :=
  let main_v34 : FVec F S1024x2048 .f32 := Host.absf main_arg7
  let main_cst_12 : FVec F S_ .f32 := constant S_ .f32 0x7F800000#32
  let main_v35 : FVec F S1024x2048 .f32 := broadcastInDim S1024x2048 ![] bcast_S_S1024x2048 main_cst_12
  let main_v36 : IVec S1024x2048 1 := cmpf .olt main_v34 main_v35
  let main_c_13 : IVec S_ 1 := constantI S_ 1 1#1
  let main_v37 : IVec S_ 1 := (fun x v => Host.reduce IntOp.andi x v reducesTo_S1024x2048_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_v48 main_v49 main_v50

def fn_part1 {F : FTy → Type} [FloatOps F] (main_arg4 : FVec F S1024 .f32) (main_arg5 : FVec F S1024x2048 .f32) (main_arg6 : FVec F S1024 .f32) (main_arg7 : FVec F S1024x2048 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x2048 .f32 := Host.absf main_arg5
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4096x1024 .f32) (main_arg1 : FVec F S4096x1024 .f32) (main_arg2 : FVec F S4096x1024 .f32) (main_arg3 : FVec F S1024x2048 .f32) (main_arg4 : FVec F S1024 .f32) (main_arg5 : FVec F S1024x2048 .f32) (main_arg6 : FVec F S1024 .f32) (main_arg7 : FVec F S1024x2048 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4096x1024 : Shape := ⟨2, ![4096, 1024]⟩
abbrev S1024x2048 : Shape := ⟨2, ![1024, 2048]⟩
abbrev S1024 : Shape := ⟨1, ![1024]⟩
abbrev S1024x1024 : Shape := ⟨2, ![1024, 1024]⟩
abbrev S2048x1024 : Shape := ⟨2, ![2048, 1024]⟩
abbrev S2048x3072 : Shape := ⟨2, ![2048, 3072]⟩
abbrev S3072 : Shape := ⟨1, ![3072]⟩
abbrev S1x3072 : Shape := ⟨2, ![1, 3072]⟩
abbrev S2048 : Shape := ⟨1, ![2048]⟩
abbrev S1x2048 : Shape := ⟨2, ![1, 2048]⟩
abbrev S1x1024 : Shape := ⟨2, ![1, 1024]⟩
abbrev S128x1024 : Shape := ⟨2, ![128, 1024]⟩
abbrev S128x2048 : Shape := ⟨2, ![128, 2048]⟩
abbrev S128x3072 : Shape := ⟨2, ![128, 3072]⟩

abbrev nBuf : Space → Nat
  | .hbm => 33
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x2048, .f32⟩
  | .hbm, ⟨4, _⟩ => ⟨S1024, .f32⟩
  | .hbm, ⟨5, _⟩ => ⟨S1024x2048, .f32⟩
  | .hbm, ⟨6, _⟩ => ⟨S1024, .f32⟩
  | .hbm, ⟨7, _⟩ => ⟨S1024x2048, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x3072, .f32⟩
  | .hbm, ⟨19, _⟩ => ⟨S2048x3072, .bf16⟩
  | .hbm, ⟨20, _⟩ => ⟨S3072, .f32⟩
  | .hbm, ⟨21, _⟩ => ⟨S1x3072, .f32⟩
  | .hbm, ⟨22, _⟩ => ⟨S1024x1024, .f32⟩
  | .hbm, ⟨23, _⟩ => ⟨S1024x1024, .f32⟩
  | .hbm, ⟨24, _⟩ => ⟨S1024x2048, .f32⟩
  | .hbm, ⟨25, _⟩ => ⟨S1024x2048, .bf16⟩
  | .hbm, ⟨26, _⟩ => ⟨S2048, .f32⟩
  | .hbm, ⟨27, _⟩ => ⟨S1x2048, .f32⟩
  | .hbm, ⟨28, _⟩ => ⟨S1024x1024, .f32⟩
  | .hbm, ⟨29, _⟩ => ⟨S1024x1024, .bf16⟩
  | .hbm, ⟨30, _⟩ => ⟨S1x1024, .f32⟩
  | .hbm, ⟨31, _⟩ => ⟨S4096x1024, .f32⟩
  | .hbm, ⟨32, _⟩ => ⟨S4096x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S2048x3072, .bf16⟩
  | .local _ .vmem, ⟨7, _⟩ => ⟨S1x3072, .f32⟩
  | .local _ .vmem, ⟨8, _⟩ => ⟨S1024x2048, .bf16⟩
  | .local _ .vmem, ⟨9, _⟩ => ⟨S1x2048, .f32⟩
  | .local _ .vmem, ⟨10, _⟩ => ⟨S1024x1024, .bf16⟩
  | .local _ .vmem, ⟨11, _⟩ => ⟨S1x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16_0 : Ref sig .tc := ⟨.hbm, 31, rfl⟩
abbrev main_v16_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  transposes_S1024x2048_S2048x1024_1_0 : S1024x2048.Transposes [1, 0] S2048x1024
  concatenates_S2048x1024_S2048x1024_S2048x1024_S2048x3072_d1 : Shape.Concatenates [S2048x1024, S2048x1024, S2048x1024] S2048x3072 1
  bitsLt_bf16_f32 : FTy.bits .bf16 < FTy.bits .f32
  concatenates_S1024_S1024_S1024_S3072_d0 : Shape.Concatenates [S1024, S1024, S1024] S3072 0
  shapeCasts_S3072_S1x3072 : S3072.ShapeCasts S1x3072
  transposes_S1024x1024_S1024x1024_1_0 : S1024x1024.Transposes [1, 0] S1024x1024
  concatenates_S1024x1024_S1024x1024_S1024x2048_d1 : Shape.Concatenates [S1024x1024, S1024x1024] S1024x2048 1
  concatenates_S1024_S1024_S2048_d0 : Shape.Concatenates [S1024, S1024] S2048 0
  shapeCasts_S2048_S1x2048 : S2048.ShapeCasts S1x2048
  shapeCasts_S1024_S1x1024 : S1024.ShapeCasts S1x1024
  inb_S128x1024_S128x1024_0_0 : ∀ a, (![0, 0] : Fin 2 → Nat) a + S128x1024.size a ≤ S128x1024.size a
  h_S128x1024 : 0 < S128x1024.numel
  concatenates_S128x1024_S128x1024_S128x2048_d1 : Shape.Concatenates [S128x1024, S128x1024] S128x2048 1
  inb_S2048x3072_S2048x3072_0_0 : ∀ a, (![0, 0] : Fin 2 → Nat) a + S2048x3072.size a ≤ S2048x3072.size a
  h_S2048x3072 : 0 < S2048x3072.numel
  shapeCasts_S2048x3072_S2048x3072 : S2048x3072.ShapeCasts S2048x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S128x3072 : S1x3072.Broadcasts S128x3072
  slices_S128x3072_o0_0_S128x1024 : S128x3072.Slices ![0, 0] S128x1024
  slices_S128x3072_o0_1024_S128x1024 : S128x3072.Slices ![0, 1024] S128x1024
  slices_S128x3072_o0_2048_S128x1024 : S128x3072.Slices ![0, 2048] S128x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  slices_S128x2048_o0_0_S128x1024 : S128x2048.Slices ![0, 0] S128x1024
  slices_S128x2048_o0_1024_S128x1024 : S128x2048.Slices ![0, 1024] S128x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  dot_S128x2048_S2048x3072_S128x3072_1_0_0_1_n_n_wf : DotDims.WF S128x2048 S2048x3072 S128x3072 [1] [0] [0] [1] [] []
  dot_S128x1024_S1024x2048_S128x2048_1_0_0_1_n_n_wf : DotDims.WF S128x1024 S1024x2048 S128x2048 [1] [0] [0] [1] [] []
  dot_S128x1024_S1024x1024_S128x1024_1_0_0_1_n_n_wf : DotDims.WF S128x1024 S1024x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S4096x1024.size a
  hwx0_0 : ∀ i : grid0.Coords, EltTy.bits .f32 = 32 ∨ (Rect.block (s := S4096x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S4096x1024.size a
  hwx0_1 : ∀ i : grid0.Coords, EltTy.bits .f32 = 32 ∨ (Rect.block (s := S4096x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S4096x1024.size a
  hwx0_2 : ∀ i : grid0.Coords, EltTy.bits .f32 = 32 ∨ (Rect.block (s := S4096x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x3072.size a ≤ S2048x3072.size a
  hwx0_3 : ∀ i : grid0.Coords, EltTy.bits .bf16 = 32 ∨ (Rect.block (s := S2048x3072) S2048x3072.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x3072.size a ≤ S1x3072.size a
  hwx0_4 : ∀ i : grid0.Coords, EltTy.bits .f32 = 32 ∨ (Rect.block (s := S1x3072) S1x3072.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S1024x2048.size a
  hwx0_5 : ∀ i : grid0.Coords, EltTy.bits .bf16 = 32 ∨ (Rect.block (s := S1024x2048) S1024x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x1024.size a ≤ S4096x1024.size a
  hwx0_9 : ∀ i : grid0.Coords, EltTy.bits .f32 = 32 ∨ (Rect.block (s := S4096x1024) S128x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x1024.size a ≤ S4096x1024.size a
  hwx0_10 : ∀ i : grid0.Coords, EltTy.bits .f32 = 32 ∨ (Rect.block (s := S4096x1024) S128x1024.size (cc0_transform_10 i) (hinb0_10 i)).WholeWords (EltTy.packing .f32)

variable [Facts₀]

def dot_S128x2048_S2048x3072_S128x3072_1_0_0_1_n_n : DotDims S128x2048 S2048x3072 S128x3072 where
  lhsContracting := [1]
  rhsContracting := [0]
  lhsNonContracting := [0]
  rhsNonContracting := [1]
  lhsBatch := []
  rhsBatch := []
  wf := dot_S128x2048_S2048x3072_S128x3072_1_0_0_1_n_n_wf
def dot_S128x1024_S1024x2048_S128x2048_1_0_0_1_n_n : DotDims S128x1024 S1024x2048 S128x2048 where
  lhsContracting := [1]
  rhsContracting := [0]
  lhsNonContracting := [0]
  rhsNonContracting := [1]
  lhsBatch := []
  rhsBatch := []
  wf := dot_S128x1024_S1024x2048_S128x2048_1_0_0_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x3072.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1024x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v16_0) S128x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v16_1) S128x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x2048 : Shape := ⟨2, ![1024, 2048]⟩
abbrev S1024 : Shape := ⟨1, ![1024]⟩
abbrev S1024x1024 : Shape := ⟨2, ![1024, 1024]⟩
abbrev S4096x2048 : Shape := ⟨2, ![4096, 2048]⟩
abbrev S3072x2048 : Shape := ⟨2, ![3072, 2048]⟩
abbrev S3072 : Shape := ⟨1, ![3072]⟩
abbrev S2048x3072 : Shape := ⟨2, ![2048, 3072]⟩
abbrev S4096x3072 : Shape := ⟨2, ![4096, 3072]⟩
abbrev S1x3072 : Shape := ⟨2, ![1, 3072]⟩
abbrev S_ : Shape := ⟨0, ![]⟩
abbrev S1x1024 : Shape := ⟨2, ![1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x2048, .f32⟩
  | .hbm, ⟨4, _⟩ => ⟨S1024, .f32⟩
  | .hbm, ⟨5, _⟩ => ⟨S1024x2048, .f32⟩
  | .hbm, ⟨6, _⟩ => ⟨S1024, .f32⟩
  | .hbm, ⟨7, _⟩ => ⟨S1024x2048, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S4096x2048, .f32⟩
  | .hbm, ⟨16, _⟩ => ⟨S3072x2048, .f32⟩
  | .hbm, ⟨17, _⟩ => ⟨S3072, .f32⟩
  | .hbm, ⟨18, _⟩ => ⟨S2048x3072, .f32⟩
  | .hbm, ⟨19, _⟩ => ⟨S4096x3072, .f32⟩
  | .hbm, ⟨20, _⟩ => ⟨S1x3072, .f32⟩
  | .hbm, ⟨21, _⟩ => ⟨S4096x3072, .f32⟩
  | .hbm, ⟨22, _⟩ => ⟨S4096x3072, .f32⟩
  | .hbm, ⟨23, _⟩ => ⟨S4096x3072, .f32⟩
  | .hbm, ⟨24, _⟩ => ⟨S4096x3072, .f32⟩
  | .hbm, ⟨25, _⟩ => ⟨S_, .f32⟩
  | .hbm, ⟨26, _⟩ => ⟨S4096x3072, .f32⟩
  | .hbm, ⟨27, _⟩ => ⟨S4096x3072, .f32⟩
  | .hbm, ⟨28, _⟩ => ⟨S_, .f32⟩
  | .hbm, ⟨29, _⟩ => ⟨S4096x3072, .f32⟩
  | .hbm, ⟨30, _⟩ => ⟨S4096x3072, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S1024x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S1024x1024, .f32⟩
  | .hbm, ⟨40, _⟩ => ⟨S4096x1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S1024x1024, .f32⟩
  | .hbm, ⟨45, _⟩ => ⟨S4096x1024, .f32⟩
  | .hbm, ⟨46, _⟩ => ⟨S1x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩

abbrev nD : Nat := 1
abbrev τ : Topo := Topo.v7x

variable {F : FTy → Type} [FloatOps F]

class Facts₀ : Prop where
  concatenates_S4096x1024_S4096x1024_S4096x2048_d1 : Shape.Concatenates [S4096x1024, S4096x1024] S4096x2048 1
  concatenates_S1024x2048_S1024x2048_S1024x2048_S3072x2048_d0 : Shape.Concatenates [S1024x2048, S1024x2048, S1024x2048] S3072x2048 0
  concatenates_S1024_S1024_S1024_S3072_d0 : Shape.Concatenates [S1024, S1024, S1024] S3072 0
  transposes_S3072x2048_S2048x3072_1_0 : S3072x2048.Transposes [1, 0] S2048x3072
  bcast_S3072_S1x3072_1 : S3072.BroadcastsInDim S1x3072 (![1] : Fin 1 → Fin S1x3072.rank)
  bcast_S1x3072_S4096x3072_0_1 : S1x3072.BroadcastsInDim S4096x3072 (![0, 1] : Fin 2 → Fin S4096x3072.rank)
  bcast_S_S4096x3072 : S_.BroadcastsInDim S4096x3072 (![] : Fin 0 → Fin S4096x3072.rank)
  slices_S4096x3072_S4096x1024_0_0 : S4096x3072.Slices ![0, 0] S4096x1024
  slices_S4096x3072_S4096x1024_0_1024 : S4096x3072.Slices ![0, 1024] S4096x1024
  slices_S4096x3072_S4096x1024_0_2048 : S4096x3072.Slices ![0, 2048] S4096x1024
  transposes_S1024x1024_S1024x1024_1_0 : S1024x1024.Transposes [1, 0] S1024x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  dot_S4096x2048_S2048x3072_S4096x3072_1_0_0_1_n_n_wf : DotDims.WF S4096x2048 S2048x3072 S4096x3072 [1] [0] [0] [1] [] []
  dot_S4096x1024_S1024x1024_S4096x1024_1_0_0_1_n_n_wf : DotDims.WF S4096x1024 S1024x1024 S4096x1024 [1] [0] [0] [1] [] []

variable [Facts₀]

def dot_S4096x2048_S2048x3072_S4096x3072_1_0_0_1_n_n : DotDims S4096x2048 S2048x3072 S4096x3072 where
  lhsContracting := [1]
  rhsContracting := [0]
  lhsNonContracting := [0]
  rhsNonContracting := [1]
  lhsBatch := []
  rhsBatch := []
  wf := dot_S4096x2048_S2048x3072_S4096x3072_1_0_0_1_n_n_wf
def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf

class Facts : Prop extends Facts₀ where

variable [Facts]
-- ==== Proof.K.Entry.lean ====
/-
  The program up to its one kernel launch, and the frame claim read off a run of the launch.

  @main is sixteen host operations (three transposes joined and rounded to the gate matrix, the joined gate bias, the
  joined s/g matrix and bias, the transposed recurrent matrix, the reshaped last bias) followed by the kernel launch.
  `V m c b` is what buffer `b` of core `c` holds when the launch begins: the launch contents `m` after those sixteen
  operations. None of them writes an argument array, so each argument is found as launched (`V_main_argK`).
  `iblk m c w t` is the block of window `w` at grid point `t` read off those contents; an input window's staging
  buffer holds that block at every point, fetched there or not (`before_in`: the nine input windows; the six weight and
  bias windows have a constant block index and are fetched once). `frame_of`: from a run of the launch that ends with
  every window's array at what the proof data computes and every other buffer as the launch found it, the fifteen
  argument arrays end as launched — the three batch inputs because an input window's array is never written, the twelve
  parameters because no window stages them.
-/
import proofs.«107532_j54150947668389_1_alg».proof.Proof.Gen.Kernel.Launch
import proofs.«107532_j54150947668389_1_alg».proof.Proof.Gen.Kernel.Skeleton
import proofs.«107532_j54150947668389_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the launch -/

/-- Core `c`'s buffers when the launch begins: the launch contents after the sixteen host operations. -/
abbrev V (c : Dev nD) (b : Ref sig .tc) : Buf (Elt F) ((c : Thread nD τ).loc b) := StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- @main is the host operations, run over the unscoped buffers, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer no host operation writes is found as launched. -/
theorem V_of_not_written (c : Dev nD) (b : Ref sig .tc)
    (h : ∀ op ∈ (hostOps0 : List (HloOp τ sig (Elt F))), Proc.devRef (τ := τ) .tc b ∉ op.writes) :
    V m c b = m ((c : Thread nD τ).loc b) :=
  StableHlo.after_of_forall_not_mem (b := Proc.devRef .tc b) _ _ h

/-- Argument 0 is written by no host operation. -/
theorem V_main_arg0 (c : Dev nD) : V m c main_arg0 = m ((c : Thread nD τ).loc main_arg0) :=
  V_of_not_written m c main_arg0 (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- Argument 1 is written by no host operation. -/
theorem V_main_arg1 (c : Dev nD) : V m c main_arg1 = m ((c : Thread nD τ).loc main_arg1) :=
  V_of_not_written m c main_arg1 (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- Argument 2 is written by no host operation. -/
theorem V_main_arg2 (c : Dev nD) : V m c main_arg2 = m ((c : Thread nD τ).loc main_arg2) :=
  V_of_not_written m c main_arg2 (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- Argument 3 is written by no host operation. -/
theorem V_main_arg3 (c : Dev nD) : V m c main_arg3 = m ((c : Thread nD τ).loc main_arg3) :=
  V_of_not_written m c main_arg3 (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- Argument 4 is written by no host operation. -/
theorem V_main_arg4 (c : Dev nD) : V m c main_arg4 = m ((c : Thread nD τ).loc main_arg4) :=
  V_of_not_written m c main_arg4 (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- Argument 5 is written by no host operation. -/
theorem V_main_arg5 (c : Dev nD) : V m c main_arg5 = m ((c : Thread nD τ).loc main_arg5) :=
  V_of_not_written m c main_arg5 (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- Argument 6 is written by no host operation. -/
theorem V_main_arg6 (c : Dev nD) : V m c main_arg6 = m ((c : Thread nD τ).loc main_arg6) :=
  V_of_not_written m c main_arg6 (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- Argument 7 is written by no host operation. -/
theorem V_main_arg7 (c : Dev nD) : V m c main_arg7 = m ((c : Thread nD τ).loc main_arg7) :=
  V_of_not_written m c main_arg7 (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- Argument 8 is written by no host operation. -/
theorem V_main_arg8 (c : Dev nD) : V m c main_arg8 = m ((c : Thread nD τ).loc main_arg8) :=
  V_of_not_written m c main_arg8 (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- Argument 9 is written by no host operation. -/
theorem V_main_arg9 (c : Dev nD) : V m c main_arg9 = m ((c : Thread nD τ).loc main_arg9) :=
  V_of_not_written m c main_arg9 (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- Argument 10 is written by no host operation. -/
theorem V_main_arg10 (c : Dev nD) : V m c main_arg10 = m ((c : Thread nD τ).loc main_arg10) :=
  V_of_not_written m c main_arg10 (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- Argument 11 is written by no host operation. -/
theorem V_main_arg11 (c : Dev nD) : V m c main_arg11 = m ((c : Thread nD τ).loc main_arg11) :=
  V_of_not_written m c main_arg11 (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- Argument 12 is written by no host operation. -/
theorem V_main_arg12 (c : Dev nD) : V m c main_arg12 = m ((c : Thread nD τ).loc main_arg12) :=
  V_of_not_written m c main_arg12 (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- Argument 13 is written by no host operation. -/
theorem V_main_arg13 (c : Dev nD) : V m c main_arg13 = m ((c : Thread nD τ).loc main_arg13) :=
  V_of_not_written m c main_arg13 (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- Argument 14 is written by no host operation. -/
theorem V_main_arg14 (c : Dev nD) : V m c main_arg14 = m ((c : Thread nD τ).loc main_arg14) :=
  V_of_not_written m c main_arg14 (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not, for any proof data whose
    array is the launch's and whose body leaves the block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not, for any proof data whose
    array is the launch's and whose body leaves the block in place. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not, for any proof data whose
    array is the launch's and whose body leaves the block in place. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not, for any proof data whose
    array is the launch's and whose body leaves the block in place. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not, for any proof data whose
    array is the launch's and whose body leaves the block in place. -/
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not, for any proof data whose
    array is the launch's and whose body leaves the block in place. -/
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, fetched there or not, for any proof data whose
    array is the launch's and whose body leaves the block in place. -/
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, fetched there or not, for any proof data whose
    array is the launch's and whose body leaves the block in place. -/
theorem before_in7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every point, fetched there or not, for any proof data whose
    array is the launch's and whose body leaves the block in place. -/
theorem before_in8 {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run of the launch -/

/-- In a final state of such a run the argument arrays are as launched: the three staged inputs because an input
    window's array ends at its entry contents, the twelve parameters because they bypass the launch. -/
theorem args_kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  ⟨((h c).1 0).trans (((dats 0 c).arrAt_in 0 rfl _).trans ((hA c 0).trans (V_main_arg0 m c))),
    ((h c).1 1).trans (((dats 0 c).arrAt_in 1 rfl _).trans ((hA c 1).trans (V_main_arg1 m c))),
    ((h c).1 2).trans (((dats 0 c).arrAt_in 2 rfl _).trans ((hA c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c),
    ((h c).2 main_arg14 (Pipeline.mem_restRefs_of main_arg14 (by decide) (by decide))).trans (V_main_arg14 m c)⟩

/-- The frame claim from a run of the launch. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => args_kept m dats hA r h c) h

end Cert.Kernel.Run

end
-- ==== Proof.K.Body.lean ====
/-
  The kernel body at one grid point, the proof data of the launch, and the launch's run.

  The body loads its nine input blocks whole, computes, and stores two whole blocks: the new hidden state into window 9
  and the new cell state into window 10 (it also loads each output block before storing into it, and uses neither
  value). So after the body each output's staging buffer holds one stored value laid over the whole block
  (`outH`, `outC`: the stored values are the skeleton's payloads of the loaded blocks), whatever it held before, and each
  input's staging buffer holds what it held (`sound_kernel`). The proof data says so at every grid point over the
  windows' blocks (`dats`); the body obligation at a point follows because an input window's staging buffer holds its
  block there (`before_in`), and the launch's run ends with every window's array at what the proof data computes
  (`run_main`), from which the argument arrays end as launched (`frame`).
-/
import proofs.«107532_j54150947668389_1_alg».proof.Proof.K.Entry

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each a whole block -/

abbrev rB : Rect S128x1024 := Rect.unit (s := S128x1024) ![0, 0] S128x1024.size inb_S128x1024_S128x1024_0_0
abbrev rWg : Rect S2048x3072 := Rect.unit (s := S2048x3072) ![0, 0] S2048x3072.size inb_S2048x3072_S2048x3072_0_0
abbrev rBg : Rect S1x3072 := Rect.unit (s := S1x3072) ![0, 0] S1x3072.size inb_S1x3072_S1x3072_0_0
abbrev rWs : Rect S1024x2048 := Rect.unit (s := S1024x2048) ![0, 0] S1024x2048.size inb_S1024x2048_S1024x2048_0_0
abbrev rBs : Rect S1x2048 := Rect.unit (s := S1x2048) ![0, 0] S1x2048.size inb_S1x2048_S1x2048_0_0
abbrev rWh : Rect S1024x1024 := Rect.unit (s := S1024x1024) ![0, 0] S1024x1024.size inb_S1024x1024_S1024x1024_0_0
abbrev rBh : Rect S1x1024 := Rect.unit (s := S1x1024) ![0, 0] S1x1024.size inb_S1x1024_S1x1024_0_0

/-! ## What the body leaves in each output window's buffer -/

/-- The new hidden state's buffer after the body: its one store laid over the block. -/
def outH (x0 : Vec F S128x1024 .f32) (x1 : Vec F S128x1024 .f32) (x2 : Vec F S128x1024 .f32) (x3 : Vec F S2048x3072 .bf16) (x4 : Vec F S1x3072 .f32) (x5 : Vec F S1024x2048 .bf16) (x6 : Vec F S1x2048 .f32) (x7 : Vec F S1024x1024 .bf16) (x8 : Vec F S1x1024 .f32) : Vec F S128x1024 .f32 :=
  View.canon [⟨rB, k0_pay2 (k0_pay6 (View.ld x0 rB) (View.ld x1 rB) (View.ld x3 rWg) (View.ld x4 rBg)) (k0_pay7 (View.ld x0 rB) (View.ld x1 rB) (View.ld x2 rB) (View.ld x3 rWg) (View.ld x4 rBg)) (k0_pay8 (View.ld x0 rB) (View.ld x1 rB) (View.ld x3 rWg) (View.ld x4 rBg) (View.ld x5 rWs) (View.ld x6 rBs) (View.ld x7 rWh) (View.ld x8 rBh))⟩]

/-- The new cell state's buffer after the body: its one store laid over the block. -/
def outC (x0 : Vec F S128x1024 .f32) (x1 : Vec F S128x1024 .f32) (x2 : Vec F S128x1024 .f32) (x3 : Vec F S2048x3072 .bf16) (x4 : Vec F S1x3072 .f32) (x5 : Vec F S1024x2048 .bf16) (x6 : Vec F S1x2048 .f32) (x7 : Vec F S1024x1024 .bf16) (x8 : Vec F S1x1024 .f32) : Vec F S128x1024 .f32 :=
  View.canon [⟨rB, k0_pay1 (k0_pay7 (View.ld x0 rB) (View.ld x1 rB) (View.ld x2 rB) (View.ld x3 rWg) (View.ld x4 rBg)) (k0_pay8 (View.ld x0 rB) (View.ld x1 rB) (View.ld x3 rWg) (View.ld x4 rBg) (View.ld x5 rWs) (View.ld x6 rBs) (View.ld x7 rWh) (View.ld x8 rBh))⟩]

/-- A store through the whole-block rectangle covers the block. -/
theorem coverB (p0 : Vec F S128x1024 .f32) (y : S128x1024.Idx) :
    ∃ pc ∈ ([⟨rB, p0⟩] : List (View.Piece (Elt F) S128x1024 .f32)), y ∈ pc.1.set :=
  View.cover_of_tiled [⟨rB, p0⟩] S128x1024.size (by rfl) y

/-! ## The body's triple -/

set_option maxHeartbeats 4000000 in
/-- The body on whole staging memrefs, the inputs' at read contents `xW` and the outputs' at anything, runs to the
    continuation holding the inputs' as they were and the outputs' at `outH`, `outC` of the inputs'. -/
theorem sound_kernel (c : Dev nD) (E : Set ℕ) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S2048x3072 .bf16) (harg4 : arg4.IsWhole) (arg5 : Memref sig .tc .vmem S1x3072 .f32) (harg5 : arg5.IsWhole) (arg6 : Memref sig .tc .vmem S1024x2048 .bf16) (harg6 : arg6.IsWhole) (arg7 : Memref sig .tc .vmem S1x2048 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S128x1024 .f32) (harg10 : arg10.IsWhole) (arg11 : Memref sig .tc .vmem S128x1024 .f32) (harg11 : arg11.IsWhole)
    (x0 : Vec F S128x1024 .f32) (x1 : Vec F S128x1024 .f32) (x2 : Vec F S128x1024 .f32) (x3 : Vec F S2048x3072 .bf16) (x4 : Vec F S1x3072 .f32) (x5 : Vec F S1024x2048 .bf16) (x6 : Vec F S1x2048 .f32) (x7 : Vec F S1024x1024 .bf16) (x8 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (outH x0 x1 x2 x3 x4 x5 x6 x7 x8) ∗ owns (c : Thread nD τ) arg11 fullShare (outC x0 x1 x2 x3 x4 x5 x6 x7 x8)) -∗ K ⟨⟩))
      ⊢ wp frame (wpE (defs₀ (F := F)) Variants.none c none) E (cc0__cell_kernel i arg1 harg1 arg2 harg2 arg3 harg3 arg4 harg4 arg5 harg5 arg6 harg6 arg7 harg7 arg8 harg8 arg9 harg9 arg10 harg10 arg11 harg11) K := by
  simp only [cc0__cell_kernel_eq_skeleton]; unfold cc0__cell_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (coverB _)
  iexists _; isplitr
  swap; · iexact H10
  ipureintro
  try dsimp only
  exact View.read_writes_eq_canon _ _ _ (coverB _)

/-! ## The launch's proof data -/

/-- The proof data of the launch on core `c`: the arrays as the launch finds them; after the body at point `t` each
    input's buffer at its block and each output's at `outH` / `outC` of the input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outH (iblk m c 0 t) (iblk m c 1 t) (iblk m c 2 t) (iblk m c 3 t) (iblk m c 4 t) (iblk m c 5 t) (iblk m c 6 t) (iblk m c 7 t) (iblk m c 8 t)
    | ⟨10, _⟩ => outC (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

/-- The proof data's arrays are the launch's. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = outH (iblk m c 0 t) (iblk m c 1 t) (iblk m c 2 t) (iblk m c 3 t) (iblk m c 4 t) (iblk m c 5 t) (iblk m c 6 t) (iblk m c 7 t) (iblk m c 8 t) := by dsimp only [dats]
theorem after10 (c : Dev nD) (t : Fin cfg0.N) : (dats m 0 c).after 10 t = outC (iblk m c 0 t) (iblk m c 1 t) (iblk m c 2 t) (iblk m c 3 t) (iblk m c 4 t) (iblk m c 5 t) (iblk m c 6 t) (iblk m c 7 t) (iblk m c 8 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d
theorem before5 (c : Dev nD) (t : Fin cfg0.N) (d) : (dats m 0 c).before 5 t d = iblk m c 5 t :=
  before_in5 m (dats m 0 c) (A_eq m c 5) (after5 m c) t d
theorem before6 (c : Dev nD) (t : Fin cfg0.N) (d) : (dats m 0 c).before 6 t d = iblk m c 6 t :=
  before_in6 m (dats m 0 c) (A_eq m c 6) (after6 m c) t d
theorem before7 (c : Dev nD) (t : Fin cfg0.N) (d) : (dats m 0 c).before 7 t d = iblk m c 7 t :=
  before_in7 m (dats m 0 c) (A_eq m c 7) (after7 m c) t d
theorem before8 (c : Dev nD) (t : Fin cfg0.N) (d) : (dats m 0 c).before 8 t d = iblk m c 8 t :=
  before_in8 m (dats m 0 c) (A_eq m c 8) (after8 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 1000000 in
/-- The body at any point: the inputs' memrefs hold their blocks, so `sound_kernel` applies; the invariant and the
    core's owed signals pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    window's array at what the proof data computes and every other unscoped buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every weakly fair execution terminates, nothing faults, and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.Kernel.Run

end
-- ==== Proof.KI.Entry.lean ====
/-
  The program up to its one kernel launch, and the frame claim read off a run of the launch.

  @main is sixteen host operations (three transposes joined and rounded to the gate matrix, the joined gate bias, the
  joined s/g matrix and bias, the transposed recurrent matrix, the reshaped last bias) followed by the kernel launch.
  `V m c b` is what buffer `b` of core `c` holds when the launch begins: the launch contents `m` after those sixteen
  operations. None of them writes an argument array, so each argument is found as launched (`V_main_argK`).
  `iblk m c w t` is the block of window `w` at grid point `t` read off those contents; an input window's staging
  buffer holds that block at every point, fetched there or not (`before_in`: the nine input windows; the six weight and
  bias windows have a constant block index and are fetched once). `frame_of`: from a run of the launch that ends with
  every window's array at what the proof data computes and every other buffer as the launch found it, the fifteen
  argument arrays end as launched — the three batch inputs because an input window's array is never written, the twelve
  parameters because no window stages them.
-/
import proofs.«107532_j54150947668389_1_alg».proof.Proof.Gen.KernelIdeal.Launch
import proofs.«107532_j54150947668389_1_alg».proof.Proof.Gen.KernelIdeal.Skeleton
import proofs.«107532_j54150947668389_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the launch -/

/-- Core `c`'s buffers when the launch begins: the launch contents after the sixteen host operations. -/
abbrev V (c : Dev nD) (b : Ref sig .tc) : Buf (Elt F) ((c : Thread nD τ).loc b) := StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- @main is the host operations, run over the unscoped buffers, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer no host operation writes is found as launched. -/
theorem V_of_not_written (c : Dev nD) (b : Ref sig .tc)
    (h : ∀ op ∈ (hostOps0 : List (HloOp τ sig (Elt F))), Proc.devRef (τ := τ) .tc b ∉ op.writes) :
    V m c b = m ((c : Thread nD τ).loc b) :=
  StableHlo.after_of_forall_not_mem (b := Proc.devRef .tc b) _ _ h

/-- Argument 0 is written by no host operation. -/
theorem V_main_arg0 (c : Dev nD) : V m c main_arg0 = m ((c : Thread nD τ).loc main_arg0) :=
  V_of_not_written m c main_arg0 (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- Argument 1 is written by no host operation. -/
theorem V_main_arg1 (c : Dev nD) : V m c main_arg1 = m ((c : Thread nD τ).loc main_arg1) :=
  V_of_not_written m c main_arg1 (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- Argument 2 is written by no host operation. -/
theorem V_main_arg2 (c : Dev nD) : V m c main_arg2 = m ((c : Thread nD τ).loc main_arg2) :=
  V_of_not_written m c main_arg2 (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- Argument 3 is written by no host operation. -/
theorem V_main_arg3 (c : Dev nD) : V m c main_arg3 = m ((c : Thread nD τ).loc main_arg3) :=
  V_of_not_written m c main_arg3 (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- Argument 4 is written by no host operation. -/
theorem V_main_arg4 (c : Dev nD) : V m c main_arg4 = m ((c : Thread nD τ).loc main_arg4) :=
  V_of_not_written m c main_arg4 (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- Argument 5 is written by no host operation. -/
theorem V_main_arg5 (c : Dev nD) : V m c main_arg5 = m ((c : Thread nD τ).loc main_arg5) :=
  V_of_not_written m c main_arg5 (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- Argument 6 is written by no host operation. -/
theorem V_main_arg6 (c : Dev nD) : V m c main_arg6 = m ((c : Thread nD τ).loc main_arg6) :=
  V_of_not_written m c main_arg6 (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- Argument 7 is written by no host operation. -/
theorem V_main_arg7 (c : Dev nD) : V m c main_arg7 = m ((c : Thread nD τ).loc main_arg7) :=
  V_of_not_written m c main_arg7 (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- Argument 8 is written by no host operation. -/
theorem V_main_arg8 (c : Dev nD) : V m c main_arg8 = m ((c : Thread nD τ).loc main_arg8) :=
  V_of_not_written m c main_arg8 (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- Argument 9 is written by no host operation. -/
theorem V_main_arg9 (c : Dev nD) : V m c main_arg9 = m ((c : Thread nD τ).loc main_arg9) :=
  V_of_not_written m c main_arg9 (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- Argument 10 is written by no host operation. -/
theorem V_main_arg10 (c : Dev nD) : V m c main_arg10 = m ((c : Thread nD τ).loc main_arg10) :=
  V_of_not_written m c main_arg10 (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- Argument 11 is written by no host operation. -/
theorem V_main_arg11 (c : Dev nD) : V m c main_arg11 = m ((c : Thread nD τ).loc main_arg11) :=
  V_of_not_written m c main_arg11 (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- Argument 12 is written by no host operation. -/
theorem V_main_arg12 (c : Dev nD) : V m c main_arg12 = m ((c : Thread nD τ).loc main_arg12) :=
  V_of_not_written m c main_arg12 (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- Argument 13 is written by no host operation. -/
theorem V_main_arg13 (c : Dev nD) : V m c main_arg13 = m ((c : Thread nD τ).loc main_arg13) :=
  V_of_not_written m c main_arg13 (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- Argument 14 is written by no host operation. -/
theorem V_main_arg14 (c : Dev nD) : V m c main_arg14 = m ((c : Thread nD τ).loc main_arg14) :=
  V_of_not_written m c main_arg14 (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not, for any proof data whose
    array is the launch's and whose body leaves the block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not, for any proof data whose
    array is the launch's and whose body leaves the block in place. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not, for any proof data whose
    array is the launch's and whose body leaves the block in place. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not, for any proof data whose
    array is the launch's and whose body leaves the block in place. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not, for any proof data whose
    array is the launch's and whose body leaves the block in place. -/
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not, for any proof data whose
    array is the launch's and whose body leaves the block in place. -/
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, fetched there or not, for any proof data whose
    array is the launch's and whose body leaves the block in place. -/
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, fetched there or not, for any proof data whose
    array is the launch's and whose body leaves the block in place. -/
theorem before_in7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every point, fetched there or not, for any proof data whose
    array is the launch's and whose body leaves the block in place. -/
theorem before_in8 {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run of the launch -/

/-- In a final state of such a run the argument arrays are as launched: the three staged inputs because an input
    window's array ends at its entry contents, the twelve parameters because they bypass the launch. -/
theorem args_kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  ⟨((h c).1 0).trans (((dats 0 c).arrAt_in 0 rfl _).trans ((hA c 0).trans (V_main_arg0 m c))),
    ((h c).1 1).trans (((dats 0 c).arrAt_in 1 rfl _).trans ((hA c 1).trans (V_main_arg1 m c))),
    ((h c).1 2).trans (((dats 0 c).arrAt_in 2 rfl _).trans ((hA c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c),
    ((h c).2 main_arg14 (Pipeline.mem_restRefs_of main_arg14 (by decide) (by decide))).trans (V_main_arg14 m c)⟩

/-- The frame claim from a run of the launch. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => args_kept m dats hA r h c) h

end Cert.KernelIdeal.Run

end
-- ==== Proof.KI.Body.lean ====
/-
  The kernel body at one grid point, the proof data of the launch, and the launch's run.

  The body loads its nine input blocks whole, computes, and stores two whole blocks: the new hidden state into window 9
  and the new cell state into window 10 (it also loads each output block before storing into it, and uses neither
  value). So after the body each output's staging buffer holds one stored value laid over the whole block
  (`outH`, `outC`: the stored values are the skeleton's payloads of the loaded blocks), whatever it held before, and each
  input's staging buffer holds what it held (`sound_kernel`). The proof data says so at every grid point over the
  windows' blocks (`dats`); the body obligation at a point follows because an input window's staging buffer holds its
  block there (`before_in`), and the launch's run ends with every window's array at what the proof data computes
  (`run_main`), from which the argument arrays end as launched (`frame`).
-/
import proofs.«107532_j54150947668389_1_alg».proof.Proof.KI.Entry

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each a whole block -/

abbrev rB : Rect S128x1024 := Rect.unit (s := S128x1024) ![0, 0] S128x1024.size inb_S128x1024_S128x1024_0_0
abbrev rWg : Rect S2048x3072 := Rect.unit (s := S2048x3072) ![0, 0] S2048x3072.size inb_S2048x3072_S2048x3072_0_0
abbrev rBg : Rect S1x3072 := Rect.unit (s := S1x3072) ![0, 0] S1x3072.size inb_S1x3072_S1x3072_0_0
abbrev rWs : Rect S1024x2048 := Rect.unit (s := S1024x2048) ![0, 0] S1024x2048.size inb_S1024x2048_S1024x2048_0_0
abbrev rBs : Rect S1x2048 := Rect.unit (s := S1x2048) ![0, 0] S1x2048.size inb_S1x2048_S1x2048_0_0
abbrev rWh : Rect S1024x1024 := Rect.unit (s := S1024x1024) ![0, 0] S1024x1024.size inb_S1024x1024_S1024x1024_0_0
abbrev rBh : Rect S1x1024 := Rect.unit (s := S1x1024) ![0, 0] S1x1024.size inb_S1x1024_S1x1024_0_0

/-! ## What the body leaves in each output window's buffer -/

/-- The new hidden state's buffer after the body: its one store laid over the block. -/
def outH (x0 : Vec F S128x1024 .f32) (x1 : Vec F S128x1024 .f32) (x2 : Vec F S128x1024 .f32) (x3 : Vec F S2048x3072 .bf16) (x4 : Vec F S1x3072 .f32) (x5 : Vec F S1024x2048 .bf16) (x6 : Vec F S1x2048 .f32) (x7 : Vec F S1024x1024 .bf16) (x8 : Vec F S1x1024 .f32) : Vec F S128x1024 .f32 :=
  View.canon [⟨rB, k0_pay2 (k0_pay6 (View.ld x0 rB) (View.ld x1 rB) (View.ld x3 rWg) (View.ld x4 rBg)) (k0_pay7 (View.ld x0 rB) (View.ld x1 rB) (View.ld x2 rB) (View.ld x3 rWg) (View.ld x4 rBg)) (k0_pay8 (View.ld x0 rB) (View.ld x1 rB) (View.ld x3 rWg) (View.ld x4 rBg) (View.ld x5 rWs) (View.ld x6 rBs) (View.ld x7 rWh) (View.ld x8 rBh))⟩]

/-- The new cell state's buffer after the body: its one store laid over the block. -/
def outC (x0 : Vec F S128x1024 .f32) (x1 : Vec F S128x1024 .f32) (x2 : Vec F S128x1024 .f32) (x3 : Vec F S2048x3072 .bf16) (x4 : Vec F S1x3072 .f32) (x5 : Vec F S1024x2048 .bf16) (x6 : Vec F S1x2048 .f32) (x7 : Vec F S1024x1024 .bf16) (x8 : Vec F S1x1024 .f32) : Vec F S128x1024 .f32 :=
  View.canon [⟨rB, k0_pay1 (k0_pay7 (View.ld x0 rB) (View.ld x1 rB) (View.ld x2 rB) (View.ld x3 rWg) (View.ld x4 rBg)) (k0_pay8 (View.ld x0 rB) (View.ld x1 rB) (View.ld x3 rWg) (View.ld x4 rBg) (View.ld x5 rWs) (View.ld x6 rBs) (View.ld x7 rWh) (View.ld x8 rBh))⟩]

/-- A store through the whole-block rectangle covers the block. -/
theorem coverB (p0 : Vec F S128x1024 .f32) (y : S128x1024.Idx) :
    ∃ pc ∈ ([⟨rB, p0⟩] : List (View.Piece (Elt F) S128x1024 .f32)), y ∈ pc.1.set :=
  View.cover_of_tiled [⟨rB, p0⟩] S128x1024.size (by rfl) y

/-! ## The body's triple -/

set_option maxHeartbeats 4000000 in
/-- The body on whole staging memrefs, the inputs' at read contents `xW` and the outputs' at anything, runs to the
    continuation holding the inputs' as they were and the outputs' at `outH`, `outC` of the inputs'. -/
theorem sound_kernel (c : Dev nD) (E : Set ℕ) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S2048x3072 .bf16) (harg4 : arg4.IsWhole) (arg5 : Memref sig .tc .vmem S1x3072 .f32) (harg5 : arg5.IsWhole) (arg6 : Memref sig .tc .vmem S1024x2048 .bf16) (harg6 : arg6.IsWhole) (arg7 : Memref sig .tc .vmem S1x2048 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S128x1024 .f32) (harg10 : arg10.IsWhole) (arg11 : Memref sig .tc .vmem S128x1024 .f32) (harg11 : arg11.IsWhole)
    (x0 : Vec F S128x1024 .f32) (x1 : Vec F S128x1024 .f32) (x2 : Vec F S128x1024 .f32) (x3 : Vec F S2048x3072 .bf16) (x4 : Vec F S1x3072 .f32) (x5 : Vec F S1024x2048 .bf16) (x6 : Vec F S1x2048 .f32) (x7 : Vec F S1024x1024 .bf16) (x8 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (outH x0 x1 x2 x3 x4 x5 x6 x7 x8) ∗ owns (c : Thread nD τ) arg11 fullShare (outC x0 x1 x2 x3 x4 x5 x6 x7 x8)) -∗ K ⟨⟩))
      ⊢ wp frame (wpE (defs₀ (F := F)) Variants.none c none) E (cc0__cell_kernel i arg1 harg1 arg2 harg2 arg3 harg3 arg4 harg4 arg5 harg5 arg6 harg6 arg7 harg7 arg8 harg8 arg9 harg9 arg10 harg10 arg11 harg11) K := by
  simp only [cc0__cell_kernel_eq_skeleton]; unfold cc0__cell_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (coverB _)
  iexists _; isplitr
  swap; · iexact H10
  ipureintro
  try dsimp only
  exact View.read_writes_eq_canon _ _ _ (coverB _)

/-! ## The launch's proof data -/

/-- The proof data of the launch on core `c`: the arrays as the launch finds them; after the body at point `t` each
    input's buffer at its block and each output's at `outH` / `outC` of the input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outH (iblk m c 0 t) (iblk m c 1 t) (iblk m c 2 t) (iblk m c 3 t) (iblk m c 4 t) (iblk m c 5 t) (iblk m c 6 t) (iblk m c 7 t) (iblk m c 8 t)
    | ⟨10, _⟩ => outC (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

/-- The proof data's arrays are the launch's. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = outH (iblk m c 0 t) (iblk m c 1 t) (iblk m c 2 t) (iblk m c 3 t) (iblk m c 4 t) (iblk m c 5 t) (iblk m c 6 t) (iblk m c 7 t) (iblk m c 8 t) := by dsimp only [dats]
theorem after10 (c : Dev nD) (t : Fin cfg0.N) : (dats m 0 c).after 10 t = outC (iblk m c 0 t) (iblk m c 1 t) (iblk m c 2 t) (iblk m c 3 t) (iblk m c 4 t) (iblk m c 5 t) (iblk m c 6 t) (iblk m c 7 t) (iblk m c 8 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d
theorem before5 (c : Dev nD) (t : Fin cfg0.N) (d) : (dats m 0 c).before 5 t d = iblk m c 5 t :=
  before_in5 m (dats m 0 c) (A_eq m c 5) (after5 m c) t d
theorem before6 (c : Dev nD) (t : Fin cfg0.N) (d) : (dats m 0 c).before 6 t d = iblk m c 6 t :=
  before_in6 m (dats m 0 c) (A_eq m c 6) (after6 m c) t d
theorem before7 (c : Dev nD) (t : Fin cfg0.N) (d) : (dats m 0 c).before 7 t d = iblk m c 7 t :=
  before_in7 m (dats m 0 c) (A_eq m c 7) (after7 m c) t d
theorem before8 (c : Dev nD) (t : Fin cfg0.N) (d) : (dats m 0 c).before 8 t d = iblk m c 8 t :=
  before_in8 m (dats m 0 c) (A_eq m c 8) (after8 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 1000000 in
/-- The body at any point: the inputs' memrefs hold their blocks, so `sound_kernel` applies; the invariant and the
    core's owed signals pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    window's array at what the proof data computes and every other unscoped buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every weakly fair execution terminates, nothing faults, and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.KernelIdeal.Run

end
-- ==== Proof.Spec.lean ====
/-
  The recurrent cell both programs compute, written once over the extended reals.

  One step of the cell, for batch row p and hidden unit j:
    z_g   = ∑ₖ [x | h](p, k) · W_g(j, k) + b_g(j)          for the three gates g = i, f, o  (k over the 2048 joined features)
    s     = ∑ₖ x(p, k) · Wxs(j, k) + bxs(j)
    cand  = (∑ₖ x(p, k) · Wxg(j, k) + bxg(j)) + (∑ₖ h(p, k) · Whg(j, k) + bhg(j))
    c'    = σ(z_f) · c(p, j) + σ(z_i) · tanh (s · cand)
    h'    = σ(z_o) · tanh c'
  with σ the logistic function 1 / (1 + e^(-z)). The three gates are stored side by side: gate columns 0..1023 are
  the input gate's, 1024..2047 the forget gate's, 2048..3071 the output gate's; `catW3`, `catB3` read the joined
  weight matrix and bias at a gate column, `catXH` the joined input row at a feature.
-/
import Idealize.ShloMosaic.PureOps.Ideal
import Idealize.ShloMosaic.Lib.ValueIdx

noncomputable section

namespace Cert.Spec

open Idealize.ShloMosaic Idealize.ShloMosaic.ValueIdx

abbrev A4096x1024 : Type := (⟨2, ![4096, 1024]⟩ : Shape).Idx → EReal
abbrev A1024x2048 : Type := (⟨2, ![1024, 2048]⟩ : Shape).Idx → EReal
abbrev A1024x1024 : Type := (⟨2, ![1024, 1024]⟩ : Shape).Idx → EReal
abbrev A1024 : Type := (⟨1, ![1024]⟩ : Shape).Idx → EReal

/-- A row times a column plus a bias: (∑ₖ a k · w k) + b. -/
def dotb {K : Nat} (a w : Fin K → EReal) (b : EReal) : EReal := (∑ k : Fin K, a k * w k) + b

/-- The new cell state from the pre-activations of the input and forget gates, the old state, and the three
    linear terms of the candidate. -/
def cellC (zi zf cp s xg hg : EReal) : EReal :=
  Ideal.logistic zf * cp + Ideal.logistic zi * Ideal.tanh (s * (xg + hg))

/-- The new hidden state from the output gate's pre-activation and the new cell state. -/
def cellH (zo cn : EReal) : EReal := Ideal.logistic zo * Ideal.tanh cn

/-- Feature k of the joined row [x | h] of batch row p. -/
def catXH (x h : A4096x1024) (p : Fin 4096) (k : Fin 2048) : EReal :=
  if hk : k.val < 1024 then x (ix2 p ⟨k.val, hk⟩) else h (ix2 p ⟨k.val - 1024, by have := k.isLt; omega⟩)

/-- Row J of the three gate matrices stacked: the input gate's rows, then the forget gate's, then the output gate's. -/
def catW3 (Wi Wf Wo : A1024x2048) (J : Fin 3072) (k : Fin 2048) : EReal :=
  if h1 : J.val < 1024 then Wi (ix2 ⟨J.val, h1⟩ k)
  else if h2 : J.val < 2048 then Wf (ix2 ⟨J.val - 1024, by omega⟩ k)
  else Wo (ix2 ⟨J.val - 2048, by have := J.isLt; omega⟩ k)

/-- Entry J of the three gate biases stacked. -/
def catB3 (bi bf bo : A1024) (J : Fin 3072) : EReal :=
  if h1 : J.val < 1024 then bi (ix1 ⟨J.val, h1⟩)
  else if h2 : J.val < 2048 then bf (ix1 ⟨J.val - 1024, by omega⟩)
  else bo (ix1 ⟨J.val - 2048, by have := J.isLt; omega⟩)

/-- The pre-activation of gate column J at batch row p. -/
def gatePre (x h : A4096x1024) (Wi Wf Wo : A1024x2048) (bi bf bo : A1024) (p : Fin 4096) (J : Fin 3072) : EReal :=
  dotb (catXH x h p) (catW3 Wi Wf Wo J) (catB3 bi bf bo J)

/-- A linear layer y = a · Wᵀ + b at (p, j), W stored [out, in]. -/
def lin (a : A4096x1024) (W : A1024x1024) (b : A1024) (p : Fin 4096) (j : Fin 1024) : EReal :=
  dotb (fun k : Fin 1024 => a (ix2 p k)) (fun k : Fin 1024 => W (ix2 j k)) (b (ix1 j))

/-- The new cell state at (p, j). -/
def newC (x h c : A4096x1024) (Wi Wf Wo : A1024x2048) (bi bf bo : A1024) (Wxs Wxg Whg : A1024x1024) (bxs bxg bhg : A1024)
    (p : Fin 4096) (j : Fin 1024) : EReal :=
  cellC (gatePre x h Wi Wf Wo bi bf bo p ⟨j.val, by have := j.isLt; omega⟩)
    (gatePre x h Wi Wf Wo bi bf bo p ⟨1024 + j.val, by have := j.isLt; omega⟩)
    (c (ix2 p j)) (lin x Wxs bxs p j) (lin x Wxg bxg p j) (lin h Whg bhg p j)

/-- The new hidden state at (p, j). -/
def newH (x h c : A4096x1024) (Wi Wf Wo : A1024x2048) (bi bf bo : A1024) (Wxs Wxg Whg : A1024x1024) (bxs bxg bhg : A1024)
    (p : Fin 4096) (j : Fin 1024) : EReal :=
  cellH (gatePre x h Wi Wf Wo bi bf bo p ⟨2048 + j.val, by have := j.isLt; omega⟩)
    (newC x h c Wi Wf Wo bi bf bo Wxs Wxg Whg bxs bxg bhg p j)

/-- The new cell state as a whole array. -/
def arrC (x h c : A4096x1024) (Wi Wf Wo : A1024x2048) (bi bf bo : A1024) (Wxs Wxg Whg : A1024x1024) (bxs bxg bhg : A1024) : A4096x1024 :=
  fun i => newC x h c Wi Wf Wo bi bf bo Wxs Wxg Whg bxs bxg bhg (i 0) (i 1)

/-- The new hidden state as a whole array. -/
def arrH (x h c : A4096x1024) (Wi Wf Wo : A1024x2048) (bi bf bo : A1024) (Wxs Wxg Whg : A1024x1024) (bxs bxg bhg : A1024) : A4096x1024 :=
  fun i => newH x h c Wi Wf Wo bi bf bo Wxs Wxg Whg bxs bxg bhg (i 0) (i 1)

theorem arrC_ix2 (x h c : A4096x1024) (Wi Wf Wo : A1024x2048) (bi bf bo : A1024) (Wxs Wxg Whg : A1024x1024) (bxs bxg bhg : A1024)
    (p : Fin 4096) (j : Fin 1024) :
    arrC x h c Wi Wf Wo bi bf bo Wxs Wxg Whg bxs bxg bhg (ix2 p j) = newC x h c Wi Wf Wo bi bf bo Wxs Wxg Whg bxs bxg bhg p j := rfl

theorem arrH_ix2 (x h c : A4096x1024) (Wi Wf Wo : A1024x2048) (bi bf bo : A1024) (Wxs Wxg Whg : A1024x1024) (bxs bxg bhg : A1024)
    (p : Fin 4096) (j : Fin 1024) :
    arrH x h c Wi Wf Wo bi bf bo Wxs Wxg Whg bxs bxg bhg (ix2 p j) = newH x h c Wi Wf Wo bi bf bo Wxs Wxg Whg bxs bxg bhg p j := rfl

end Cert.Spec

end
-- ==== Proof.BlockSpec.lean ====
/-
  The cell on one tile of 128 batch rows, written over the tile's blocks.

  A tile holds rows of x, h and c (128 × 1024 each) and sees the whole of the transposed weights: `wg` (2048 × 3072, the
  three gate matrices transposed and set side by side), `bg` (1 × 3072), `ws` (1024 × 2048: Wxsᵀ beside Wxgᵀ),
  `bs` (1 × 2048), `wh` (1024 × 1024: Whgᵀ), `bh` (1 × 1024). Row r, hidden unit j of the tile's new cell and hidden
  states are `Spec.cellC`, `Spec.cellH` of row-by-column sums over those blocks.
-/
import proofs.«107532_j54150947668389_1_alg».proof.Proof.Spec

noncomputable section

namespace Cert.Spec

open Idealize.ShloMosaic Idealize.ShloMosaic.ValueIdx

abbrev B128x1024 : Type := (⟨2, ![128, 1024]⟩ : Shape).Idx → EReal
abbrev B2048x3072 : Type := (⟨2, ![2048, 3072]⟩ : Shape).Idx → EReal
abbrev B1x3072 : Type := (⟨2, ![1, 3072]⟩ : Shape).Idx → EReal
abbrev B1024x2048 : Type := (⟨2, ![1024, 2048]⟩ : Shape).Idx → EReal
abbrev B1x2048 : Type := (⟨2, ![1, 2048]⟩ : Shape).Idx → EReal
abbrev B1024x1024 : Type := (⟨2, ![1024, 1024]⟩ : Shape).Idx → EReal
abbrev B1x1024 : Type := (⟨2, ![1, 1024]⟩ : Shape).Idx → EReal

/-- Feature k of the tile's joined row [x | h] at row r. -/
def blkXH (x0 h0 : B128x1024) (r : Fin 128) (k : Fin 2048) : EReal :=
  if hk : k.val < 1024 then x0 (ix2 r ⟨k.val, hk⟩) else h0 (ix2 r ⟨k.val - 1024, by have := k.isLt; omega⟩)

/-- The pre-activation of gate column J at the tile's row r. -/
def blkZ (x0 h0 : B128x1024) (wg : B2048x3072) (bg : B1x3072) (r : Fin 128) (J : Fin 3072) : EReal :=
  dotb (blkXH x0 h0 r) (fun k : Fin 2048 => wg (ix2 k J)) (bg (ix2 (0 : Fin 1) J))

/-- The tile's new cell state at (r, j). -/
def blkC (x0 h0 c0 : B128x1024) (wg : B2048x3072) (bg : B1x3072) (ws : B1024x2048) (bs : B1x2048) (wh : B1024x1024) (bh : B1x1024)
    (r : Fin 128) (j : Fin 1024) : EReal :=
  cellC (blkZ x0 h0 wg bg r ⟨j.val, by have := j.isLt; omega⟩)
    (blkZ x0 h0 wg bg r ⟨1024 + j.val, by have := j.isLt; omega⟩)
    (c0 (ix2 r j))
    (dotb (fun k : Fin 1024 => x0 (ix2 r k)) (fun k : Fin 1024 => ws (ix2 k (⟨j.val, by have := j.isLt; omega⟩ : Fin 2048)))
      (bs (ix2 (0 : Fin 1) (⟨j.val, by have := j.isLt; omega⟩ : Fin 2048))))
    (dotb (fun k : Fin 1024 => x0 (ix2 r k)) (fun k : Fin 1024 => ws (ix2 k (⟨1024 + j.val, by have := j.isLt; omega⟩ : Fin 2048)))
      (bs (ix2 (0 : Fin 1) (⟨1024 + j.val, by have := j.isLt; omega⟩ : Fin 2048))))
    (dotb (fun k : Fin 1024 => h0 (ix2 r k)) (fun k : Fin 1024 => wh (ix2 k j)) (bh (ix2 (0 : Fin 1) j)))

/-- The tile's new hidden state at (r, j). -/
def blkH (x0 h0 c0 : B128x1024) (wg : B2048x3072) (bg : B1x3072) (ws : B1024x2048) (bs : B1x2048) (wh : B1024x1024) (bh : B1x1024)
    (r : Fin 128) (j : Fin 1024) : EReal :=
  cellH (blkZ x0 h0 wg bg r ⟨2048 + j.val, by have := j.isLt; omega⟩) (blkC x0 h0 c0 wg bg ws bs wh bh r j)

end Cert.Spec

end
-- ==== Proof.LibPlainDot.lean ====
/-
  General lemmas for reading a kernel's vector operations at an index, at the ideal instance.

  * `matmul_plain_apply`: a matrix product of an [M, K] operand with a [K, N] operand into a zero accumulator, read at
    (p, j), is the sum over k of lhs (p, k) · rhs (k, j), for any record of dimension numbers whose four axis facts are
    given (row of the output from the left operand's axis 0, column from the right operand's axis 1, the one contracted
    index on the left's axis 1 and the right's axis 0).
  * `shapeCast_a_a1_apply`: an [a] vector recast as an [a, 1] column reads, at (p, u), the vector at p.
  * `broadcastTo_a1_ab_apply`: an [a, 1] column broadcast to [a, b] reads, at (p, c), the column at (p, 0).
-/
import Idealize.ShloMosaic.PureOps.Ideal.Laws
import Idealize.ShloMosaic.Lib.ValueIdx
import Idealize.ShloMosaic.Lib.ValueLayout
import Idealize.ShloMosaic.Lib.Pipeline.Value

noncomputable section

namespace Cert.Lib

open Idealize.ShloMosaic Idealize.ShloMosaic.ValueIdx

/-- A plain two-operand matrix product into the zero accumulator, read at (p, j): ∑ₖ lhs (p, k) · rhs (k, j). -/
theorem matmul_plain_apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![M, K]⟩ φ₁) (rhs : FVec Ideal ⟨2, ![K, N]⟩ φ₂)
    (p : Fin M) (j : Fin N) :
    FloatOps.matmul d prec lhs rhs (constant ⟨2, ![M, N]⟩ .f32 0x00000000#32) (ix2 p j)
      = ∑ k : Fin K, lhs (ix2 p k) * rhs (ix2 k j) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact hl0 _ _
    | ⟨1, _⟩ => exact (hl1 _ _).trans hk)
  have er : d.rhsIdx (ix2 p j) ((contrEquiv1 d K hr hs).symm k) = ix2 k j := funext fun a => Fin.ext (by
    match a with
    | ⟨0, _⟩ => exact (hr0 _ _).trans hk
    | ⟨1, _⟩ => exact hr1 _ _)
  rw [el, er]

variable {α : Type}

/-- An `[a]` vector recast as an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.KPay.lean ====
/-
  The kernel's stored values at an index.

  The kernel body computes, on one tile of 128 batch rows, the new cell state and the new hidden state from the loaded
  blocks. Read at row r and hidden unit j over the extended reals these are the tile's cell: a narrowing of the number
  format is the identity, a matrix product into the zero accumulator is a sum over the contracted axis, a one-row bias
  broadcast over the rows reads its row 0, a slice of columns from an offset reads the column offset + j, and the two
  blocks set side by side read the first for a feature below 1024 and the second at the feature less 1024 otherwise.
-/
import proofs.«107532_j54150947668389_1_alg».proof.Proof.Gen.KernelIdeal.Skeleton
import proofs.«107532_j54150947668389_1_alg».proof.Proof.BlockSpec
import proofs.«107532_j54150947668389_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KValue

open Cert.KernelIdeal Cert.KernelIdeal.Gen Idealize.ShloMosaic Idealize.ShloMosaic.ValueIdx

/-! ### The axes of the gate product's dimension numbers -/

/-- The output's row comes from the left operand's axis 0. -/
theorem lhs_gate_0 (i : S128x3072.Idx) (q : dot_S128x2048_S2048x3072_S128x3072_1_0_0_1_n_n.contr.Idx) :
    (dot_S128x2048_S2048x3072_S128x3072_1_0_0_1_n_n.lhsIdx i q 0).val = (i 0).val := by
  unfold DotDims.lhsIdx
  rw [dif_neg (show ¬(0 : Fin S128x2048.rank) ∈ dot_S128x2048_S2048x3072_S128x3072_1_0_0_1_n_n.lhsBatch by decide), dif_pos (show (0 : Fin S128x2048.rank) ∈ dot_S128x2048_S2048x3072_S128x3072_1_0_0_1_n_n.lhsNonContracting by decide)]
  rfl
/-- The contracted index sits on the left operand's axis 1. -/
theorem lhs_gate_1 (i : S128x3072.Idx) (q : dot_S128x2048_S2048x3072_S128x3072_1_0_0_1_n_n.contr.Idx) :
    (dot_S128x2048_S2048x3072_S128x3072_1_0_0_1_n_n.lhsIdx i q 1).val = (q ⟨0, by decide⟩).val :=
  dot_S128x2048_S2048x3072_S128x3072_1_0_0_1_n_n.lhsIdx_val_of_single rfl i q
/-- The contracted index sits on the right operand's axis 0. -/
theorem rhs_gate_0 (i : S128x3072.Idx) (q : dot_S128x2048_S2048x3072_S128x3072_1_0_0_1_n_n.contr.Idx) :
    (dot_S128x2048_S2048x3072_S128x3072_1_0_0_1_n_n.rhsIdx i q 0).val = (q ⟨0, by decide⟩).val :=
  dot_S128x2048_S2048x3072_S128x3072_1_0_0_1_n_n.rhsIdx_val_of_single rfl i q
/-- The output's column comes from the right operand's axis 1. -/
theorem rhs_gate_1 (i : S128x3072.Idx) (q : dot_S128x2048_S2048x3072_S128x3072_1_0_0_1_n_n.contr.Idx) :
    (dot_S128x2048_S2048x3072_S128x3072_1_0_0_1_n_n.rhsIdx i q 1).val = (i 1).val := by
  unfold DotDims.rhsIdx
  rw [dif_neg (show ¬(1 : Fin S2048x3072.rank) ∈ dot_S128x2048_S2048x3072_S128x3072_1_0_0_1_n_n.rhsBatch by decide), dif_pos (show (1 : Fin S2048x3072.rank) ∈ dot_S128x2048_S2048x3072_S128x3072_1_0_0_1_n_n.rhsNonContracting by decide)]
  rfl

/-! ### The axes of the side product's dimension numbers -/

/-- The output's row comes from the left operand's axis 0. -/
theorem lhs_side_0 (i : S128x2048.Idx) (q : dot_S128x1024_S1024x2048_S128x2048_1_0_0_1_n_n.contr.Idx) :
    (dot_S128x1024_S1024x2048_S128x2048_1_0_0_1_n_n.lhsIdx i q 0).val = (i 0).val := by
  unfold DotDims.lhsIdx
  rw [dif_neg (show ¬(0 : Fin S128x1024.rank) ∈ dot_S128x1024_S1024x2048_S128x2048_1_0_0_1_n_n.lhsBatch by decide), dif_pos (show (0 : Fin S128x1024.rank) ∈ dot_S128x1024_S1024x2048_S128x2048_1_0_0_1_n_n.lhsNonContracting by decide)]
  rfl
/-- The contracted index sits on the left operand's axis 1. -/
theorem lhs_side_1 (i : S128x2048.Idx) (q : dot_S128x1024_S1024x2048_S128x2048_1_0_0_1_n_n.contr.Idx) :
    (dot_S128x1024_S1024x2048_S128x2048_1_0_0_1_n_n.lhsIdx i q 1).val = (q ⟨0, by decide⟩).val :=
  dot_S128x1024_S1024x2048_S128x2048_1_0_0_1_n_n.lhsIdx_val_of_single rfl i q
/-- The contracted index sits on the right operand's axis 0. -/
theorem rhs_side_0 (i : S128x2048.Idx) (q : dot_S128x1024_S1024x2048_S128x2048_1_0_0_1_n_n.contr.Idx) :
    (dot_S128x1024_S1024x2048_S128x2048_1_0_0_1_n_n.rhsIdx i q 0).val = (q ⟨0, by decide⟩).val :=
  dot_S128x1024_S1024x2048_S128x2048_1_0_0_1_n_n.rhsIdx_val_of_single rfl i q
/-- The output's column comes from the right operand's axis 1. -/
theorem rhs_side_1 (i : S128x2048.Idx) (q : dot_S128x1024_S1024x2048_S128x2048_1_0_0_1_n_n.contr.Idx) :
    (dot_S128x1024_S1024x2048_S128x2048_1_0_0_1_n_n.rhsIdx i q 1).val = (i 1).val := by
  unfold DotDims.rhsIdx
  rw [dif_neg (show ¬(1 : Fin S1024x2048.rank) ∈ dot_S128x1024_S1024x2048_S128x2048_1_0_0_1_n_n.rhsBatch by decide), dif_pos (show (1 : Fin S1024x2048.rank) ∈ dot_S128x1024_S1024x2048_S128x2048_1_0_0_1_n_n.rhsNonContracting by decide)]
  rfl

/-! ### The axes of the hid product's dimension numbers -/

/-- The output's row comes from the left operand's axis 0. -/
theorem lhs_hid_0 (i : S128x1024.Idx) (q : dot_S128x1024_S1024x1024_S128x1024_1_0_0_1_n_n.contr.Idx) :
    (dot_S128x1024_S1024x1024_S128x1024_1_0_0_1_n_n.lhsIdx i q 0).val = (i 0).val := by
  unfold DotDims.lhsIdx
  rw [dif_neg (show ¬(0 : Fin S128x1024.rank) ∈ dot_S128x1024_S1024x1024_S128x1024_1_0_0_1_n_n.lhsBatch by decide), dif_pos (show (0 : Fin S128x1024.rank) ∈ dot_S128x1024_S1024x1024_S128x1024_1_0_0_1_n_n.lhsNonContracting by decide)]
  rfl
/-- The contracted index sits on the left operand's axis 1. -/
theorem lhs_hid_1 (i : S128x1024.Idx) (q : dot_S128x1024_S1024x1024_S128x1024_1_0_0_1_n_n.contr.Idx) :
    (dot_S128x1024_S1024x1024_S128x1024_1_0_0_1_n_n.lhsIdx i q 1).val = (q ⟨0, by decide⟩).val :=
  dot_S128x1024_S1024x1024_S128x1024_1_0_0_1_n_n.lhsIdx_val_of_single rfl i q
/-- The contracted index sits on the right operand's axis 0. -/
theorem rhs_hid_0 (i : S128x1024.Idx) (q : dot_S128x1024_S1024x1024_S128x1024_1_0_0_1_n_n.contr.Idx) :
    (dot_S128x1024_S1024x1024_S128x1024_1_0_0_1_n_n.rhsIdx i q 0).val = (q ⟨0, by decide⟩).val :=
  dot_S128x1024_S1024x1024_S128x1024_1_0_0_1_n_n.rhsIdx_val_of_single rfl i q
/-- The output's column comes from the right operand's axis 1. -/
theorem rhs_hid_1 (i : S128x1024.Idx) (q : dot_S128x1024_S1024x1024_S128x1024_1_0_0_1_n_n.contr.Idx) :
    (dot_S128x1024_S1024x1024_S128x1024_1_0_0_1_n_n.rhsIdx i q 1).val = (i 1).val := by
  unfold DotDims.rhsIdx
  rw [dif_neg (show ¬(1 : Fin S1024x1024.rank) ∈ dot_S128x1024_S1024x1024_S128x1024_1_0_0_1_n_n.rhsBatch by decide), dif_pos (show (1 : Fin S1024x1024.rank) ∈ dot_S128x1024_S1024x1024_S128x1024_1_0_0_1_n_n.rhsNonContracting by decide)]
  rfl

/-! ### The three matrix products at an index -/

/-- The gate product at (r, J): the sum over the 2048 joined features. -/
theorem matmul_gate_apply (a : FVec Ideal S128x2048 .bf16) (w : FVec Ideal S2048x3072 .bf16) (r : Fin 128) (J : Fin 3072) :
    matmul (F := Ideal) dot_S128x2048_S2048x3072_S128x3072_1_0_0_1_n_n none a w (constant S128x3072 .f32 0x00000000#32) (ix2 r J)
      = ∑ k : Fin 2048, a (ix2 r k) * w (ix2 k J) :=
  Cert.Lib.matmul_plain_apply dot_S128x2048_S2048x3072_S128x3072_1_0_0_1_n_n rfl rfl lhs_gate_0 lhs_gate_1 rhs_gate_0 rhs_gate_1 none a w r J

/-- The product of x with the two side matrices at (r, J): the sum over the 1024 input features. -/
theorem matmul_side_apply (a : FVec Ideal S128x1024 .bf16) (w : FVec Ideal S1024x2048 .bf16) (r : Fin 128) (J : Fin 2048) :
    matmul (F := Ideal) dot_S128x1024_S1024x2048_S128x2048_1_0_0_1_n_n none a w (constant S128x2048 .f32 0x00000000#32) (ix2 r J)
      = ∑ k : Fin 1024, a (ix2 r k) * w (ix2 k J) :=
  Cert.Lib.matmul_plain_apply dot_S128x1024_S1024x2048_S128x2048_1_0_0_1_n_n rfl rfl lhs_side_0 lhs_side_1 rhs_side_0 rhs_side_1 none a w r J

/-- The product of h with the hidden matrix at (r, j): the sum over the 1024 hidden features. -/
theorem matmul_hid_apply (a : FVec Ideal S128x1024 .bf16) (w : FVec Ideal S1024x1024 .bf16) (r : Fin 128) (j : Fin 1024) :
    matmul (F := Ideal) dot_S128x1024_S1024x1024_S128x1024_1_0_0_1_n_n none a w (constant S128x1024 .f32 0x00000000#32) (ix2 r j)
      = ∑ k : Fin 1024, a (ix2 r k) * w (ix2 k j) :=
  Cert.Lib.matmul_plain_apply dot_S128x1024_S1024x1024_S128x1024_1_0_0_1_n_n rfl rfl lhs_hid_0 lhs_hid_1 rhs_hid_0 rhs_hid_1 none a w r j

/-! ### The joined row [x | h] -/

/-- The two narrowed blocks set side by side read, at (r, k), the tile's joined row at feature k. -/
theorem joined_apply (x0 h0 : Vec Ideal S128x1024 .f32) (r : Fin 128) (k : Fin 2048) :
    concatenate S128x2048 1 [⟨S128x1024, k0_pay3 (F := Ideal) x0⟩, ⟨S128x1024, k0_pay4 (F := Ideal) h0⟩]
        concatenates_S128x1024_S128x1024_S128x2048_d1 (ix2 r k)
      = Cert.Spec.blkXH x0 h0 r k := by
  unfold Cert.Spec.blkXH
  split
  · next hk =>
    refine (concatenate_pair_apply_left (t := S128x2048) (s₁ := S128x1024) (s₂ := S128x1024) 1 (k0_pay3 (F := Ideal) x0)
      (k0_pay4 (F := Ideal) h0) concatenates_S128x1024_S128x1024_S128x2048_d1 (ix2 r k) rfl
      (ix2 r (⟨k.val, hk⟩ : Fin 1024)) (fun b => ?_)).trans ?_
    · match b with
      | ⟨0, _⟩ => rfl
      | ⟨1, _⟩ => rfl
    · rfl
  · next hk =>
    refine (concatenate_pair_apply_right (t := S128x2048) (s₁ := S128x1024) (s₂ := S128x1024) 1 (k0_pay3 (F := Ideal) x0)
      (k0_pay4 (F := Ideal) h0) concatenates_S128x1024_S128x1024_S128x2048_d1 (ix2 r k) rfl rfl
      (ix2 r (⟨k.val - 1024, by have := k.isLt; omega⟩ : Fin 1024)) (fun b hb => ?_) ?_).trans ?_
    · match b with
      | ⟨0, _⟩ => rfl
      | ⟨1, _⟩ => exact absurd rfl hb
    · show k.val - 1024 + 1024 = k.val
      omega
    · rfl

/-! ### The gate block -/

/-- The gate block at (r, J): the logistic function of the pre-activation of gate column J at row r. -/
theorem gates_apply (x0 h0 : Vec Ideal S128x1024 .f32) (wg : Vec Ideal S2048x3072 .bf16) (bg : Vec Ideal S1x3072 .f32)
    (r : Fin 128) (J : Fin 3072) :
    k0_pay5 (F := Ideal) x0 h0 wg bg (ix2 r J) = Ideal.logistic (Cert.Spec.blkZ x0 h0 wg bg r J) := by
  unfold k0_pay5 Cert.Spec.blkZ Cert.Spec.dotb
  refine congrArg Ideal.logistic (congrArg₂ (· + ·) ?_ ?_)
  · refine (matmul_gate_apply _ _ r J).trans (Finset.sum_congr rfl fun k _ => ?_)
    rw [joined_apply, shapeCast_self]
  · refine (broadcastTo_1b_ab_apply _ _ r J).trans ?_
    rw [shapeCast_self]

/-- The input gate at (r, j): gate column j. -/
theorem gateI_apply (x0 h0 : Vec Ideal S128x1024 .f32) (wg : Vec Ideal S2048x3072 .bf16) (bg : Vec Ideal S1x3072 .f32)
    (r : Fin 128) (j : Fin 1024) :
    extractStridedSlice S128x1024 ![0, 0] (k0_pay5 (F := Ideal) x0 h0 wg bg) slices_S128x3072_o0_0_S128x1024 (ix2 r j)
      = Ideal.logistic (Cert.Spec.blkZ x0 h0 wg bg r ⟨j.val, by have := j.isLt; omega⟩) :=
  (slice2_axis1_apply 0 _ _ r j (⟨j.val, by have := j.isLt; omega⟩ : Fin 3072) (Nat.zero_add _).symm).trans
    (gates_apply x0 h0 wg bg r _)

/-- The forget gate at (r, j): gate column 1024 + j. -/
theorem gateF_apply (x0 h0 : Vec Ideal S128x1024 .f32) (wg : Vec Ideal S2048x3072 .bf16) (bg : Vec Ideal S1x3072 .f32)
    (r : Fin 128) (j : Fin 1024) :
    extractStridedSlice S128x1024 ![0, 1024] (k0_pay5 (F := Ideal) x0 h0 wg bg) slices_S128x3072_o0_1024_S128x1024 (ix2 r j)
      = Ideal.logistic (Cert.Spec.blkZ x0 h0 wg bg r ⟨1024 + j.val, by have := j.isLt; omega⟩) :=
  (slice2_axis1_apply 1024 _ _ r j (⟨1024 + j.val, by have := j.isLt; omega⟩ : Fin 3072) rfl).trans
    (gates_apply x0 h0 wg bg r _)

/-- The output gate at (r, j): gate column 2048 + j. -/
theorem gateO_apply (x0 h0 : Vec Ideal S128x1024 .f32) (wg : Vec Ideal S2048x3072 .bf16) (bg : Vec Ideal S1x3072 .f32)
    (r : Fin 128) (j : Fin 1024) :
    extractStridedSlice S128x1024 ![0, 2048] (k0_pay5 (F := Ideal) x0 h0 wg bg) slices_S128x3072_o0_2048_S128x1024 (ix2 r j)
      = Ideal.logistic (Cert.Spec.blkZ x0 h0 wg bg r ⟨2048 + j.val, by have := j.isLt; omega⟩) :=
  (slice2_axis1_apply 2048 _ _ r j (⟨2048 + j.val, by have := j.isLt; omega⟩ : Fin 3072) rfl).trans
    (gates_apply x0 h0 wg bg r _)

/-! ### The linear terms of the candidate -/

/-- The side block at (r, J): row r of x times column J of the side matrices, plus the side bias at J. -/
theorem side_apply (x0 : Vec Ideal S128x1024 .f32) (ws : Vec Ideal S1024x2048 .bf16) (bs : Vec Ideal S1x2048 .f32)
    (r : Fin 128) (J : Fin 2048) :
    addf (matmul (F := Ideal) dot_S128x1024_S1024x2048_S128x2048_1_0_0_1_n_n none (k0_pay3 (F := Ideal) x0)
        (shapeCast S1024x2048 ws shapeCasts_S1024x2048_S1024x2048 : FVec Ideal S1024x2048 .bf16) (constant S128x2048 .f32 0x00000000#32))
      (broadcastTo S128x2048 (shapeCast S1x2048 bs shapeCasts_S1x2048_S1x2048) broadcasts_S1x2048_S128x2048) (ix2 r J)
      = Cert.Spec.dotb (fun k : Fin 1024 => x0 (ix2 r k)) (fun k : Fin 1024 => ws (ix2 k J)) (bs (ix2 (0 : Fin 1) J)) := by
  unfold Cert.Spec.dotb
  refine congrArg₂ (· + ·) ?_ ?_
  · refine (matmul_side_apply _ _ r J).trans (Finset.sum_congr rfl fun k _ => ?_)
    rw [shapeCast_self]
    rfl
  · refine (broadcastTo_1b_ab_apply _ _ r J).trans ?_
    rw [shapeCast_self]

/-- The hidden block at (r, j): row r of h times column j of the hidden matrix, plus the hidden bias at j. -/
theorem hid_apply (h0 : Vec Ideal S128x1024 .f32) (wh : Vec Ideal S1024x1024 .bf16) (bh : Vec Ideal S1x1024 .f32)
    (r : Fin 128) (j : Fin 1024) :
    addf (matmul (F := Ideal) dot_S128x1024_S1024x1024_S128x1024_1_0_0_1_n_n none (k0_pay4 (F := Ideal) h0)
        (shapeCast S1024x1024 wh shapeCasts_S1024x1024_S1024x1024 : FVec Ideal S1024x1024 .bf16) (constant S128x1024 .f32 0x00000000#32))
      (broadcastTo S128x1024 (shapeCast S1x1024 bh shapeCasts_S1x1024_S1x1024) broadcasts_S1x1024_S128x1024) (ix2 r j)
      = Cert.Spec.dotb (fun k : Fin 1024 => h0 (ix2 r k)) (fun k : Fin 1024 => wh (ix2 k j)) (bh (ix2 (0 : Fin 1) j)) := by
  unfold Cert.Spec.dotb
  refine congrArg₂ (· + ·) ?_ ?_
  · refine (matmul_hid_apply _ _ r j).trans (Finset.sum_congr rfl fun k _ => ?_)
    rw [shapeCast_self]
    rfl
  · refine (broadcastTo_1b_ab_apply _ _ r j).trans ?_
    rw [shapeCast_self]

/-! ### The two stored values -/

/-- The stored new cell state at (r, j) is the tile's cell state there. -/
theorem payC_apply (x0 h0 c0 : Vec Ideal S128x1024 .f32) (wg : Vec Ideal S2048x3072 .bf16) (bg : Vec Ideal S1x3072 .f32)
    (ws : Vec Ideal S1024x2048 .bf16) (bs : Vec Ideal S1x2048 .f32) (wh : Vec Ideal S1024x1024 .bf16) (bh : Vec Ideal S1x1024 .f32)
    (r : Fin 128) (j : Fin 1024) :
    k0_pay1 (F := Ideal) (k0_pay7 x0 h0 c0 wg bg) (k0_pay8 x0 h0 wg bg ws bs wh bh) (ix2 r j)
      = Cert.Spec.blkC x0 h0 c0 wg bg ws bs wh bh r j := by
  unfold k0_pay1 k0_pay7 k0_pay8 Cert.Spec.blkC Cert.Spec.cellC
  refine congrArg₂ (· + ·) (congrArg₂ (· * ·) (gateF_apply x0 h0 wg bg r j) rfl)
    (congrArg₂ (· * ·) (gateI_apply x0 h0 wg bg r j) (congrArg Ideal.tanh (congrArg₂ (· * ·) ?_ (congrArg₂ (· + ·) ?_ ?_))))
  · exact (slice2_axis1_apply 0 _ _ r j (⟨j.val, by have := j.isLt; omega⟩ : Fin 2048) (Nat.zero_add _).symm).trans
      (side_apply x0 ws bs r _)
  · exact (slice2_axis1_apply 1024 _ _ r j (⟨1024 + j.val, by have := j.isLt; omega⟩ : Fin 2048) rfl).trans
      (side_apply x0 ws bs r _)
  · exact hid_apply h0 wh bh r j

/-- The stored new hidden state at (r, j) is the tile's hidden state there. -/
theorem payH_apply (x0 h0 c0 : Vec Ideal S128x1024 .f32) (wg : Vec Ideal S2048x3072 .bf16) (bg : Vec Ideal S1x3072 .f32)
    (ws : Vec Ideal S1024x2048 .bf16) (bs : Vec Ideal S1x2048 .f32) (wh : Vec Ideal S1024x1024 .bf16) (bh : Vec Ideal S1x1024 .f32)
    (r : Fin 128) (j : Fin 1024) :
    k0_pay2 (F := Ideal) (k0_pay6 x0 h0 wg bg) (k0_pay7 x0 h0 c0 wg bg) (k0_pay8 x0 h0 wg bg ws bs wh bh) (ix2 r j)
      = Cert.Spec.blkH x0 h0 c0 wg bg ws bs wh bh r j := by
  unfold k0_pay2 k0_pay6 Cert.Spec.blkH Cert.Spec.cellH
  exact congrArg₂ (· * ·) (gateO_apply x0 h0 wg bg r j)
    (congrArg Ideal.tanh (payC_apply x0 h0 c0 wg bg ws bs wh bh r j))

end Cert.KernelIdeal.KValue

end
-- ==== Proof.KHost.lean ====
/-
  What the host operations before the kernel hand it, read at an index.

  Before its one launch the kernel's program builds six arrays from its arguments. Each is a chain of layout
  operations, so each of its elements is ONE element of ONE argument:
    the joined gate matrix   [2048, 3072]  (k, J) ↦ the matrix of the gate that owns column J, at (J less that gate's
                                            first column, k): each gate's matrix transposed, the three side by side
                                            along the columns, narrowed to the kernel's storage type;
    the joined gate bias     [1, 3072]     (0, J) ↦ that gate's bias there: the three biases end to end, as one row;
    the joined s/g matrix    [1024, 2048]  (k, J) ↦ Wxs(J, k) for J < 1024, Wxg(J - 1024, k) past it;
    its bias                 [1, 2048]     (0, J) ↦ bxs(J) for J < 1024, bxg(J - 1024) past it;
    Whg transposed           [1024, 1024]  (k, j) ↦ Whg(j, k);
    bhg as one row           [1, 1024]     (0, j) ↦ bhg(j).
  A narrowing is the identity over the extended reals; a transpose with permutation [1, 0] reads the operand at the
  swapped index; a concatenation reads the piece whose span holds the coordinate on the joined axis, at that
  coordinate less the extents before it; a reshape [n] → [1, n] keeps the row-major position.
-/
import proofs.«107532_j54150947668389_1_alg».proof.Proof.Gen.KernelIdeal
import proofs.«107532_j54150947668389_1_alg».proof.Proof.Spec
import Idealize.ShloMosaic.Lib.Pipeline.Value
import Idealize.ShloMosaic.Lib.ValueIdx
import Idealize.ShloMosaic.Lib.ValueLayout

noncomputable section

namespace Cert.KernelIdeal.KHost

open Cert.KernelIdeal Cert.KernelIdeal.Gen Idealize.ShloMosaic Idealize.ShloMosaic.ValueIdx

/-! ## The transposes -/

/-- A gate matrix transposed, at (k, j): the matrix at (j, k). -/
theorem tr_gate_apply (W : (⟨S1024x2048, .f32⟩ : BufTy).Contents (Elt Ideal)) (k : Fin 2048) (j : Fin 1024) :
    transpose S2048x1024 [1, 0] W transposes_S1024x2048_S2048x1024_1_0 (ix2 k j) = W (ix2 j k) :=
  transpose_apply [1, 0] W transposes_S1024x2048_S2048x1024_1_0 (ix2 k j) (ix2 j k) (fun b => match b with
    | ⟨0, _⟩ => rfl
    | ⟨1, _⟩ => rfl)

/-- A square matrix transposed, at (k, j): the matrix at (j, k). -/
theorem tr_sq_apply (W : (⟨S1024x1024, .f32⟩ : BufTy).Contents (Elt Ideal)) (k j : Fin 1024) :
    transpose S1024x1024 [1, 0] W transposes_S1024x1024_S1024x1024_1_0 (ix2 k j) = W (ix2 j k) :=
  transpose_apply [1, 0] W transposes_S1024x1024_S1024x1024_1_0 (ix2 k j) (ix2 j k) (fun b => match b with
    | ⟨0, _⟩ => rfl
    | ⟨1, _⟩ => rfl)

/-! ## Two pieces end to end -/

/-- Two vectors of 1024 end to end, at a position below 1024: the first, there. -/
theorem cat2_vec_left (u v : (⟨S1024, .f32⟩ : BufTy).Contents (Elt Ideal)) (J : Fin 2048) (hJ : J.val < 1024) :
    concatenate S2048 0 [⟨S1024, u⟩, ⟨S1024, v⟩] concatenates_S1024_S1024_S2048_d0 (ix1 J) = u (ix1 (⟨J.val, hJ⟩ : Fin 1024)) :=
  concatenate_pair_apply_left (0 : Fin S2048.rank) u v concatenates_S1024_S1024_S2048_d0 (ix1 J) rfl (ix1 (⟨J.val, hJ⟩ : Fin 1024))
    (fun b => match b with
      | ⟨0, _⟩ => rfl)

/-- Two vectors of 1024 end to end, at a position from 1024 on: the second, 1024 earlier. -/
theorem cat2_vec_right (u v : (⟨S1024, .f32⟩ : BufTy).Contents (Elt Ideal)) (J : Fin 2048) (hJ : ¬J.val < 1024) :
    concatenate S2048 0 [⟨S1024, u⟩, ⟨S1024, v⟩] concatenates_S1024_S1024_S2048_d0 (ix1 J)
      = v (ix1 (⟨J.val - 1024, by have := J.isLt; omega⟩ : Fin 1024)) :=
  concatenate_pair_apply_right (0 : Fin S2048.rank) u v concatenates_S1024_S1024_S2048_d0 (ix1 J) rfl rfl
    (ix1 (⟨J.val - 1024, by have := J.isLt; omega⟩ : Fin 1024))
    (fun b => match b with
      | ⟨0, _⟩ => fun hb => absurd rfl hb)
    (by show J.val - 1024 + 1024 = J.val; omega)

/-- Two square matrices side by side, at a column below 1024: the first, there. -/
theorem cat2_mat_left (A B : (⟨S1024x1024, .f32⟩ : BufTy).Contents (Elt Ideal)) (k : Fin 1024) (J : Fin 2048) (hJ : J.val < 1024) :
    concatenate S1024x2048 1 [⟨S1024x1024, A⟩, ⟨S1024x1024, B⟩] concatenates_S1024x1024_S1024x1024_S1024x2048_d1 (ix2 k J)
      = A (ix2 k (⟨J.val, hJ⟩ : Fin 1024)) :=
  concatenate_pair_apply_left (1 : Fin S1024x2048.rank) A B concatenates_S1024x1024_S1024x1024_S1024x2048_d1 (ix2 k J) rfl
    (ix2 k (⟨J.val, hJ⟩ : Fin 1024))
    (fun b => match b with
      | ⟨0, _⟩ => rfl
      | ⟨1, _⟩ => rfl)

/-- Two square matrices side by side, at a column from 1024 on: the second, 1024 columns earlier. -/
theorem cat2_mat_right (A B : (⟨S1024x1024, .f32⟩ : BufTy).Contents (Elt Ideal)) (k : Fin 1024) (J : Fin 2048) (hJ : ¬J.val < 1024) :
    concatenate S1024x2048 1 [⟨S1024x1024, A⟩, ⟨S1024x1024, B⟩] concatenates_S1024x1024_S1024x1024_S1024x2048_d1 (ix2 k J)
      = B (ix2 k (⟨J.val - 1024, by have := J.isLt; omega⟩ : Fin 1024)) :=
  concatenate_pair_apply_right (1 : Fin S1024x2048.rank) A B concatenates_S1024x1024_S1024x1024_S1024x2048_d1 (ix2 k J) rfl rfl
    (ix2 k (⟨J.val - 1024, by have := J.isLt; omega⟩ : Fin 1024))
    (fun b => match b with
      | ⟨0, _⟩ => fun _ => rfl
      | ⟨1, _⟩ => fun hb => absurd rfl hb)
    (by show J.val - 1024 + 1024 = J.val; omega)

/-! ## Three pieces end to end -/

/-- Three vectors of 1024 end to end, at a position in the first span: the first, there. -/
theorem cat3_vec_0 (u v w : (⟨S1024, .f32⟩ : BufTy).Contents (Elt Ideal)) (J : Fin 3072) (h1 : J.val < 1024) :
    concatenate S3072 0 [⟨S1024, u⟩, ⟨S1024, v⟩, ⟨S1024, w⟩] concatenates_S1024_S1024_S1024_S3072_d0 (ix1 J)
      = u (ix1 (⟨J.val, h1⟩ : Fin 1024)) :=
  concatenate_apply_piece (0 : Fin S3072.rank) [⟨S1024, u⟩, ⟨S1024, v⟩, ⟨S1024, w⟩] concatenates_S1024_S1024_S1024_S3072_d0 (ix1 J)
    0 (by show 0 < 3; omega) S1024 u rfl rfl 0 rfl (ix1 (⟨J.val, h1⟩ : Fin 1024))
    (fun b => match b with
      | ⟨0, _⟩ => fun hb => absurd rfl hb)
    (by show 0 + J.val = J.val; omega)

/-- In the second span: the second, 1024 earlier. -/
theorem cat3_vec_1 (u v w : (⟨S1024, .f32⟩ : BufTy).Contents (Elt Ideal)) (J : Fin 3072) (h1 : ¬J.val < 1024) (h2 : J.val < 2048) :
    concatenate S3072 0 [⟨S1024, u⟩, ⟨S1024, v⟩, ⟨S1024, w⟩] concatenates_S1024_S1024_S1024_S3072_d0 (ix1 J)
      = v (ix1 (⟨J.val - 1024, by omega⟩ : Fin 1024)) :=
  concatenate_apply_piece (0 : Fin S3072.rank) [⟨S1024, u⟩, ⟨S1024, v⟩, ⟨S1024, w⟩] concatenates_S1024_S1024_S1024_S3072_d0 (ix1 J)
    1 (by show 1 < 3; omega) S1024 v rfl rfl 1024 rfl (ix1 (⟨J.val - 1024, by omega⟩ : Fin 1024))
    (fun b => match b with
      | ⟨0, _⟩ => fun hb => absurd rfl hb)
    (by show 1024 + (J.val - 1024) = J.val; omega)

/-- In the third span: the third, 2048 earlier. -/
theorem cat3_vec_2 (u v w : (⟨S1024, .f32⟩ : BufTy).Contents (Elt Ideal)) (J : Fin 3072) (h2 : ¬J.val < 2048) :
    concatenate S3072 0 [⟨S1024, u⟩, ⟨S1024, v⟩, ⟨S1024, w⟩] concatenates_S1024_S1024_S1024_S3072_d0 (ix1 J)
      = w (ix1 (⟨J.val - 2048, by have := J.isLt; omega⟩ : Fin 1024)) :=
  concatenate_apply_piece (0 : Fin S3072.rank) [⟨S1024, u⟩, ⟨S1024, v⟩, ⟨S1024, w⟩] concatenates_S1024_S1024_S1024_S3072_d0 (ix1 J)
    2 (by show 2 < 3; omega) S1024 w rfl rfl 2048 rfl (ix1 (⟨J.val - 2048, by have := J.isLt; omega⟩ : Fin 1024))
    (fun b => match b with
      | ⟨0, _⟩ => fun hb => absurd rfl hb)
    (by show 2048 + (J.val - 2048) = J.val; omega)

/-- Three [2048, 1024] matrices side by side, at a column in the first span: the first, there. -/
theorem cat3_mat_0 (A B C : (⟨S2048x1024, .f32⟩ : BufTy).Contents (Elt Ideal)) (k : Fin 2048) (J : Fin 3072) (h1 : J.val < 1024) :
    concatenate S2048x3072 1 [⟨S2048x1024, A⟩, ⟨S2048x1024, B⟩, ⟨S2048x1024, C⟩] concatenates_S2048x1024_S2048x1024_S2048x1024_S2048x3072_d1 (ix2 k J)
      = A (ix2 k (⟨J.val, h1⟩ : Fin 1024)) :=
  concatenate_apply_piece (1 : Fin S2048x3072.rank) [⟨S2048x1024, A⟩, ⟨S2048x1024, B⟩, ⟨S2048x1024, C⟩]
    concatenates_S2048x1024_S2048x1024_S2048x1024_S2048x3072_d1 (ix2 k J)
    0 (by show 0 < 3; omega) S2048x1024 A rfl rfl 0 rfl (ix2 k (⟨J.val, h1⟩ : Fin 1024))
    (fun b => match b with
      | ⟨0, _⟩ => fun _ => rfl
      | ⟨1, _⟩ => fun hb => absurd rfl hb)
    (by show 0 + J.val = J.val; omega)

/-- In the second span: the second, 1024 columns earlier. -/
theorem cat3_mat_1 (A B C : (⟨S2048x1024, .f32⟩ : BufTy).Contents (Elt Ideal)) (k : Fin 2048) (J : Fin 3072)
    (h1 : ¬J.val < 1024) (h2 : J.val < 2048) :
    concatenate S2048x3072 1 [⟨S2048x1024, A⟩, ⟨S2048x1024, B⟩, ⟨S2048x1024, C⟩] concatenates_S2048x1024_S2048x1024_S2048x1024_S2048x3072_d1 (ix2 k J)
      = B (ix2 k (⟨J.val - 1024, by omega⟩ : Fin 1024)) :=
  concatenate_apply_piece (1 : Fin S2048x3072.rank) [⟨S2048x1024, A⟩, ⟨S2048x1024, B⟩, ⟨S2048x1024, C⟩]
    concatenates_S2048x1024_S2048x1024_S2048x1024_S2048x3072_d1 (ix2 k J)
    1 (by show 1 < 3; omega) S2048x1024 B rfl rfl 1024 rfl (ix2 k (⟨J.val - 1024, by omega⟩ : Fin 1024))
    (fun b => match b with
      | ⟨0, _⟩ => fun _ => rfl
      | ⟨1, _⟩ => fun hb => absurd rfl hb)
    (by show 1024 + (J.val - 1024) = J.val; omega)

/-- In the third span: the third, 2048 columns earlier. -/
theorem cat3_mat_2 (A B C : (⟨S2048x1024, .f32⟩ : BufTy).Contents (Elt Ideal)) (k : Fin 2048) (J : Fin 3072) (h2 : ¬J.val < 2048) :
    concatenate S2048x3072 1 [⟨S2048x1024, A⟩, ⟨S2048x1024, B⟩, ⟨S2048x1024, C⟩] concatenates_S2048x1024_S2048x1024_S2048x1024_S2048x3072_d1 (ix2 k J)
      = C (ix2 k (⟨J.val - 2048, by have := J.isLt; omega⟩ : Fin 1024)) :=
  concatenate_apply_piece (1 : Fin S2048x3072.rank) [⟨S2048x1024, A⟩, ⟨S2048x1024, B⟩, ⟨S2048x1024, C⟩]
    concatenates_S2048x1024_S2048x1024_S2048x1024_S2048x3072_d1 (ix2 k J)
    2 (by show 2 < 3; omega) S2048x1024 C rfl rfl 2048 rfl (ix2 k (⟨J.val - 2048, by have := J.isLt; omega⟩ : Fin 1024))
    (fun b => match b with
      | ⟨0, _⟩ => fun _ => rfl
      | ⟨1, _⟩ => fun hb => absurd rfl hb)
    (by show 2048 + (J.val - 2048) = J.val; omega)

/-! ## The six arrays -/

theorem wg_apply (Wi Wf Wo : (⟨S1024x2048, .f32⟩ : BufTy).Contents (Elt Ideal)) (k : Fin 2048) (J : Fin 3072) :
    (truncf .bf16 (concatenate S2048x3072 1 [⟨S2048x1024, transpose S2048x1024 [1, 0] Wi transposes_S1024x2048_S2048x1024_1_0⟩, ⟨S2048x1024, transpose S2048x1024 [1, 0] Wf transposes_S1024x2048_S2048x1024_1_0⟩, ⟨S2048x1024, transpose S2048x1024 [1, 0] Wo transposes_S1024x2048_S2048x1024_1_0⟩] concatenates_S2048x1024_S2048x1024_S2048x1024_S2048x3072_d1) bitsLt_bf16_f32 : FVec Ideal S2048x3072 .bf16) (ix2 k J)
      = Cert.Spec.catW3 Wi Wf Wo J k := by
  rw [truncf_apply]
  unfold Cert.Spec.catW3
  by_cases h1 : J.val < 1024
  · rw [dif_pos h1, cat3_mat_0 _ _ _ k J h1]
    exact tr_gate_apply Wi k _
  · rw [dif_neg h1]
    by_cases h2 : J.val < 2048
    · rw [dif_pos h2, cat3_mat_1 _ _ _ k J h1 h2]
      exact tr_gate_apply Wf k _
    · rw [dif_neg h2, cat3_mat_2 _ _ _ k J h2]
      exact tr_gate_apply Wo k _

theorem bg_apply (bi bf bo : (⟨S1024, .f32⟩ : BufTy).Contents (Elt Ideal)) (J : Fin 3072) :
    (shapeCast S1x3072 (concatenate S3072 0 [⟨S1024, bi⟩, ⟨S1024, bf⟩, ⟨S1024, bo⟩] concatenates_S1024_S1024_S1024_S3072_d0) shapeCasts_S3072_S1x3072 : FVec Ideal S1x3072 .f32) (ix2 (0 : Fin 1) J)
      = Cert.Spec.catB3 bi bf bo J := by
  refine (shapeCast_a_1a_apply _ shapeCasts_S3072_S1x3072 0 J).trans ?_
  unfold Cert.Spec.catB3
  by_cases h1 : J.val < 1024
  · rw [dif_pos h1]; exact cat3_vec_0 bi bf bo J h1
  · rw [dif_neg h1]
    by_cases h2 : J.val < 2048
    · rw [dif_pos h2]; exact cat3_vec_1 bi bf bo J h1 h2
    · rw [dif_neg h2]; exact cat3_vec_2 bi bf bo J h2

theorem ws_apply (Wxs Wxg : (⟨S1024x1024, .f32⟩ : BufTy).Contents (Elt Ideal)) (k : Fin 1024) (J : Fin 2048) :
    (truncf .bf16 (concatenate S1024x2048 1 [⟨S1024x1024, transpose S1024x1024 [1, 0] Wxs transposes_S1024x1024_S1024x1024_1_0⟩, ⟨S1024x1024, transpose S1024x1024 [1, 0] Wxg transposes_S1024x1024_S1024x1024_1_0⟩] concatenates_S1024x1024_S1024x1024_S1024x2048_d1) bitsLt_bf16_f32 : FVec Ideal S1024x2048 .bf16) (ix2 k J)
      = if hJ : J.val < 1024 then Wxs (ix2 (⟨J.val, hJ⟩ : Fin 1024) k) else Wxg (ix2 (⟨J.val - 1024, by have := J.isLt; omega⟩ : Fin 1024) k) := by
  rw [truncf_apply]
  by_cases hJ : J.val < 1024
  · rw [dif_pos hJ, cat2_mat_left _ _ k J hJ]
    exact tr_sq_apply Wxs k _
  · rw [dif_neg hJ, cat2_mat_right _ _ k J hJ]
    exact tr_sq_apply Wxg k _

theorem bs_apply (bxs bxg : (⟨S1024, .f32⟩ : BufTy).Contents (Elt Ideal)) (J : Fin 2048) :
    (shapeCast S1x2048 (concatenate S2048 0 [⟨S1024, bxs⟩, ⟨S1024, bxg⟩] concatenates_S1024_S1024_S2048_d0) shapeCasts_S2048_S1x2048 : FVec Ideal S1x2048 .f32) (ix2 (0 : Fin 1) J)
      = if hJ : J.val < 1024 then bxs (ix1 (⟨J.val, hJ⟩ : Fin 1024)) else bxg (ix1 (⟨J.val - 1024, by have := J.isLt; omega⟩ : Fin 1024)) := by
  refine (shapeCast_a_1a_apply _ shapeCasts_S2048_S1x2048 0 J).trans ?_
  by_cases hJ : J.val < 1024
  · rw [dif_pos hJ]; exact cat2_vec_left bxs bxg J hJ
  · rw [dif_neg hJ]; exact cat2_vec_right bxs bxg J hJ

theorem wh_apply (Whg : (⟨S1024x1024, .f32⟩ : BufTy).Contents (Elt Ideal)) (k j : Fin 1024) :
    (truncf .bf16 (transpose S1024x1024 [1, 0] Whg transposes_S1024x1024_S1024x1024_1_0) bitsLt_bf16_f32 : FVec Ideal S1024x1024 .bf16) (ix2 k j) = Whg (ix2 j k) := by
  rw [truncf_apply]
  exact tr_sq_apply Whg k j

theorem bh_apply (bhg : (⟨S1024, .f32⟩ : BufTy).Contents (Elt Ideal)) (j : Fin 1024) :
    (shapeCast S1x1024 bhg shapeCasts_S1024_S1x1024 : FVec Ideal S1x1024 .f32) (ix2 (0 : Fin 1) j) = bhg (ix1 j) :=
  shapeCast_a_1a_apply bhg shapeCasts_S1024_S1x1024 0 j

/-! ## What a reshape of the program leaves

A reshape's result buffer holds its operand's elements in row-major order at the result's shape: the operand's
contents under the shape cast the six statements above are written with. -/

section Reshape

open Idealize.ShloMosaic.TcCoe Idealize.SL.Sem

variable {F : FTy → Type} [FloatOps F]

/-- The joined gate bias as one row. -/
theorem reshape_v6_result (V : Valuation τ sig (Elt F)) :
    (StableHlo.reshape main_v5 main_v6 rfl shapeCasts_S3072_S1x3072 : HloOp τ sig (Elt F)).result V main_v6
      = shapeCast S1x3072 (V main_v5) shapeCasts_S3072_S1x3072 :=
  (StableHlo.reshape_result main_v5 main_v6 rfl shapeCasts_S3072_S1x3072 _ _ V).trans rfl

/-- The joined s/g bias as one row. -/
theorem reshape_v12_result (V : Valuation τ sig (Elt F)) :
    (StableHlo.reshape main_v11 main_v12 rfl shapeCasts_S2048_S1x2048 : HloOp τ sig (Elt F)).result V main_v12
      = shapeCast S1x2048 (V main_v11) shapeCasts_S2048_S1x2048 :=
  (StableHlo.reshape_result main_v11 main_v12 rfl shapeCasts_S2048_S1x2048 _ _ V).trans rfl

/-- bhg as one row. -/
theorem reshape_v15_result (V : Valuation τ sig (Elt F)) :
    (StableHlo.reshape main_arg14 main_v15 rfl shapeCasts_S1024_S1x1024 : HloOp τ sig (Elt F)).result V main_v15
      = shapeCast S1x1024 (V main_arg14) shapeCasts_S1024_S1x1024 :=
  (StableHlo.reshape_result main_arg14 main_v15 rfl shapeCasts_S1024_S1x1024 _ _ V).trans rfl

end Reshape

end Cert.KernelIdeal.KHost

end
-- ==== Proof.KI.Result.lean ====
/-
  The idealized kernel's two result arrays as whole-array functions of the arguments.

  Point t of the 32-point grid handles batch rows 128·t … 128·t + 127: the three batch windows' blocks at t are those rows
  of x, h and c, the six parameter windows' blocks are the whole joined matrices and biases the host operations built
  (read entry by entry as `Spec.catW3`, `Spec.catB3` and the transposed parameters), and what the point writes back to
  each result window is, entry by entry, the cell of `Spec` at row 128·t + r. The 32 blocks tile each result array, so
  after the run the two result arrays are `Spec.arrH` and `Spec.arrC` of the arguments.
-/
import proofs.«107532_j54150947668389_1_alg».proof.Proof.KI.Body
import proofs.«107532_j54150947668389_1_alg».proof.Proof.BlockSpec
import proofs.«107532_j54150947668389_1_alg».proof.Proof.KPay
import proofs.«107532_j54150947668389_1_alg».proof.Proof.KHost
import Idealize.ShloMosaic.Lib.Pipeline.Value
import Idealize.ShloMosaic.Lib.StableHlo.Run
import Idealize.ShloMosaic.Lib.ValueIdx

set_option maxRecDepth 16384

noncomputable section

namespace Cert.KernelIdeal.Result

open Cert.KernelIdeal Cert.KernelIdeal.Gen Cert.KernelIdeal.Run Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The argument arrays on core c -/

abbrev aX (c : Dev nD) : Spec.A4096x1024 := m ((c : Thread nD τ).loc main_arg0)
abbrev aH (c : Dev nD) : Spec.A4096x1024 := m ((c : Thread nD τ).loc main_arg1)
abbrev aC (c : Dev nD) : Spec.A4096x1024 := m ((c : Thread nD τ).loc main_arg2)
abbrev aWi (c : Dev nD) : Spec.A1024x2048 := m ((c : Thread nD τ).loc main_arg3)
abbrev abi (c : Dev nD) : Spec.A1024 := m ((c : Thread nD τ).loc main_arg4)
abbrev aWf (c : Dev nD) : Spec.A1024x2048 := m ((c : Thread nD τ).loc main_arg5)
abbrev abf (c : Dev nD) : Spec.A1024 := m ((c : Thread nD τ).loc main_arg6)
abbrev aWo (c : Dev nD) : Spec.A1024x2048 := m ((c : Thread nD τ).loc main_arg7)
abbrev abo (c : Dev nD) : Spec.A1024 := m ((c : Thread nD τ).loc main_arg8)
abbrev aWxs (c : Dev nD) : Spec.A1024x1024 := m ((c : Thread nD τ).loc main_arg9)
abbrev abxs (c : Dev nD) : Spec.A1024 := m ((c : Thread nD τ).loc main_arg10)
abbrev aWxg (c : Dev nD) : Spec.A1024x1024 := m ((c : Thread nD τ).loc main_arg11)
abbrev abxg (c : Dev nD) : Spec.A1024 := m ((c : Thread nD τ).loc main_arg12)
abbrev aWhg (c : Dev nD) : Spec.A1024x1024 := m ((c : Thread nD τ).loc main_arg13)
abbrev abhg (c : Dev nD) : Spec.A1024 := m ((c : Thread nD τ).loc main_arg14)

/-- The new hidden state of the arguments. -/
abbrev GH (c : Dev nD) : Spec.A4096x1024 :=
  Spec.arrH (aX m c) (aH m c) (aC m c) (aWi m c) (aWf m c) (aWo m c) (abi m c) (abf m c) (abo m c) (aWxs m c) (aWxg m c) (aWhg m c) (abxs m c) (abxg m c) (abhg m c)
/-- The new cell state of the arguments. -/
abbrev GC (c : Dev nD) : Spec.A4096x1024 :=
  Spec.arrC (aX m c) (aH m c) (aC m c) (aWi m c) (aWf m c) (aWo m c) (abi m c) (abf m c) (abo m c) (aWxs m c) (aWxg m c) (aWhg m c) (abxs m c) (abxg m c) (abhg m c)

/-! ## What the host operations hand the launch -/

theorem V_wg (c : Dev nD) : (V m c main_v4 : Spec.B2048x3072)
    = (truncf .bf16 (concatenate S2048x3072 1 [⟨S2048x1024, transpose S2048x1024 [1, 0] (aWi m c) transposes_S1024x2048_S2048x1024_1_0⟩, ⟨S2048x1024, transpose S2048x1024 [1, 0] (aWf m c) transposes_S1024x2048_S2048x1024_1_0⟩, ⟨S2048x1024, transpose S2048x1024 [1, 0] (aWo m c) transposes_S1024x2048_S2048x1024_1_0⟩] concatenates_S2048x1024_S2048x1024_S2048x1024_S2048x3072_d1) bitsLt_bf16_f32 : FVec Ideal S2048x3072 .bf16) := by
  dsimp only [V, hostOps0]; after_results; try rfl

theorem V_bg (c : Dev nD) : (V m c main_v6 : Spec.B1x3072)
    = (shapeCast S1x3072 (concatenate S3072 0 [⟨S1024, abi m c⟩, ⟨S1024, abf m c⟩, ⟨S1024, abo m c⟩] concatenates_S1024_S1024_S1024_S3072_d0) shapeCasts_S3072_S1x3072 : FVec Ideal S1x3072 .f32) := by
  dsimp only [V, hostOps0]; after_results; try rfl

theorem V_ws (c : Dev nD) : (V m c main_v10 : Spec.B1024x2048)
    = (truncf .bf16 (concatenate S1024x2048 1 [⟨S1024x1024, transpose S1024x1024 [1, 0] (aWxs m c) transposes_S1024x1024_S1024x1024_1_0⟩, ⟨S1024x1024, transpose S1024x1024 [1, 0] (aWxg m c) transposes_S1024x1024_S1024x1024_1_0⟩] concatenates_S1024x1024_S1024x1024_S1024x2048_d1) bitsLt_bf16_f32 : FVec Ideal S1024x2048 .bf16) := by
  dsimp only [V, hostOps0]; after_results; try rfl

theorem V_bs (c : Dev nD) : (V m c main_v12 : Spec.B1x2048)
    = (shapeCast S1x2048 (concatenate S2048 0 [⟨S1024, abxs m c⟩, ⟨S1024, abxg m c⟩] concatenates_S1024_S1024_S2048_d0) shapeCasts_S2048_S1x2048 : FVec Ideal S1x2048 .f32) := by
  dsimp only [V, hostOps0]; after_results; try rfl

theorem V_wh (c : Dev nD) : (V m c main_v14 : Spec.B1024x1024)
    = (truncf .bf16 (transpose S1024x1024 [1, 0] (aWhg m c) transposes_S1024x1024_S1024x1024_1_0) bitsLt_bf16_f32 : FVec Ideal S1024x1024 .bf16) := by
  dsimp only [V, hostOps0]; after_results; try rfl

theorem V_bh (c : Dev nD) : (V m c main_v15 : Spec.B1x1024)
    = (shapeCast S1x1024 (abhg m c) shapeCasts_S1024_S1x1024 : FVec Ideal S1x1024 .f32) := by
  dsimp only [V, hostOps0]; after_results; try rfl

/-! ## The blocks at a point, at their literal types -/

abbrev bX (c : Dev nD) (t : Fin cfg0.N) : Spec.B128x1024 := iblk m c 0 t
abbrev bHp (c : Dev nD) (t : Fin cfg0.N) : Spec.B128x1024 := iblk m c 1 t
abbrev bCp (c : Dev nD) (t : Fin cfg0.N) : Spec.B128x1024 := iblk m c 2 t
abbrev bWg (c : Dev nD) (t : Fin cfg0.N) : Spec.B2048x3072 := iblk m c 3 t
abbrev bBg (c : Dev nD) (t : Fin cfg0.N) : Spec.B1x3072 := iblk m c 4 t
abbrev bWs (c : Dev nD) (t : Fin cfg0.N) : Spec.B1024x2048 := iblk m c 5 t
abbrev bBs (c : Dev nD) (t : Fin cfg0.N) : Spec.B1x2048 := iblk m c 6 t
abbrev bWh (c : Dev nD) (t : Fin cfg0.N) : Spec.B1024x1024 := iblk m c 7 t
abbrev bBh (c : Dev nD) (t : Fin cfg0.N) : Spec.B1x1024 := iblk m c 8 t

/-- The index maps over the grid: a batch window's block index is (t, 0), a parameter window's (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

/-- The batch row that row r of point t's tile is. -/
def rowOf (t : Fin cfg0.N) (r : Fin 128) : Fin 4096 :=
  ⟨128 * t.val + r.val, by have h := t.isLt; have h32 : cfg0.N = 32 := N_0; have := r.isLt; omega⟩

/-! ### The batch blocks are rows 128·t … of the arguments -/

theorem bX_apply (c : Dev nD) (t : Fin cfg0.N) (r : Fin 128) (k : Fin 1024) :
    bX m c t (ix2 r k) = aX m c (ix2 (rowOf t r) k) := by
  show V m c main_arg0 (((cfg0.win 0).blk t).view.emb (ix2 r k)) = _
  rw [V_main_arg0]
  refine congrArg (aX m c) ?_
  funext a; apply Fin.ext
  obtain ⟨⟨e0, e1⟩, -⟩ := idx_facts t
  match a with
  | ⟨0, _⟩ => show win0_0.index t (0 : Fin 2) * 128 + 1 * r.val = 128 * t.val + r.val; omega
  | ⟨1, _⟩ => show win0_0.index t (1 : Fin 2) * 1024 + 1 * k.val = k.val; omega

theorem bHp_apply (c : Dev nD) (t : Fin cfg0.N) (r : Fin 128) (k : Fin 1024) :
    bHp m c t (ix2 r k) = aH m c (ix2 (rowOf t r) k) := by
  show V m c main_arg1 (((cfg0.win 1).blk t).view.emb (ix2 r k)) = _
  rw [V_main_arg1]
  refine congrArg (aH m c) ?_
  funext a; apply Fin.ext
  obtain ⟨-, ⟨e0, e1⟩, -⟩ := idx_facts t
  match a with
  | ⟨0, _⟩ => show win0_1.index t (0 : Fin 2) * 128 + 1 * r.val = 128 * t.val + r.val; omega
  | ⟨1, _⟩ => show win0_1.index t (1 : Fin 2) * 1024 + 1 * k.val = k.val; omega

theorem bCp_apply (c : Dev nD) (t : Fin cfg0.N) (r : Fin 128) (k : Fin 1024) :
    bCp m c t (ix2 r k) = aC m c (ix2 (rowOf t r) k) := by
  show V m c main_arg2 (((cfg0.win 2).blk t).view.emb (ix2 r k)) = _
  rw [V_main_arg2]
  refine congrArg (aC m c) ?_
  funext a; apply Fin.ext
  obtain ⟨-, -, ⟨e0, e1⟩, -⟩ := idx_facts t
  match a with
  | ⟨0, _⟩ => show win0_2.index t (0 : Fin 2) * 128 + 1 * r.val = 128 * t.val + r.val; omega
  | ⟨1, _⟩ => show win0_2.index t (1 : Fin 2) * 1024 + 1 * k.val = k.val; omega

/-! ### The parameter blocks are the whole arrays the host operations built -/

theorem bWg_apply (c : Dev nD) (t : Fin cfg0.N) (k : Fin 2048) (J : Fin 3072) :
    bWg m c t (ix2 k J) = Spec.catW3 (aWi m c) (aWf m c) (aWo m c) J k := by
  show V m c main_v4 (((cfg0.win 3).blk t).view.emb (ix2 k J)) = _
  have e : ((cfg0.win 3).blk t).view.emb (ix2 k J) = ix2 k J := by
    funext a; apply Fin.ext
    obtain ⟨-, -, -, ⟨e0, e1⟩, -⟩ := idx_facts t
    match a with
    | ⟨0, _⟩ => show win0_3.index t (0 : Fin 2) * 2048 + 1 * k.val = k.val; omega
    | ⟨1, _⟩ => show win0_3.index t (1 : Fin 2) * 3072 + 1 * J.val = J.val; omega
  rw [e]
  exact (congrFun (V_wg m c) (ix2 k J)).trans (KHost.wg_apply (aWi m c) (aWf m c) (aWo m c) k J)

theorem bBg_apply (c : Dev nD) (t : Fin cfg0.N) (J : Fin 3072) :
    bBg m c t (ix2 (0 : Fin 1) J) = Spec.catB3 (abi m c) (abf m c) (abo m c) J := by
  show V m c main_v6 (((cfg0.win 4).blk t).view.emb (ix2 (0 : Fin 1) J)) = _
  have e : ((cfg0.win 4).blk t).view.emb (ix2 (0 : Fin 1) J) = ix2 (0 : Fin 1) J := by
    funext a; apply Fin.ext
    obtain ⟨-, -, -, -, ⟨e0, e1⟩, -⟩ := idx_facts t
    match a with
    | ⟨0, _⟩ => show win0_4.index t (0 : Fin 2) * 1 + 1 * (0 : Fin 1).val = (0 : Fin 1).val; omega
    | ⟨1, _⟩ => show win0_4.index t (1 : Fin 2) * 3072 + 1 * J.val = J.val; omega
  rw [e]
  exact (congrFun (V_bg m c) (ix2 (0 : Fin 1) J)).trans (KHost.bg_apply (abi m c) (abf m c) (abo m c) J)

theorem bWs_apply (c : Dev nD) (t : Fin cfg0.N) (k : Fin 1024) (J : Fin 2048) :
    bWs m c t (ix2 k J) = if hJ : J.val < 1024 then aWxs m c (ix2 (⟨J.val, hJ⟩ : Fin 1024) k)
      else aWxg m c (ix2 (⟨J.val - 1024, by have := J.isLt; omega⟩ : Fin 1024) k) := by
  show V m c main_v10 (((cfg0.win 5).blk t).view.emb (ix2 k J)) = _
  have e : ((cfg0.win 5).blk t).view.emb (ix2 k J) = ix2 k J := by
    funext a; apply Fin.ext
    obtain ⟨-, -, -, -, -, ⟨e0, e1⟩, -⟩ := idx_facts t
    match a with
    | ⟨0, _⟩ => show win0_5.index t (0 : Fin 2) * 1024 + 1 * k.val = k.val; omega
    | ⟨1, _⟩ => show win0_5.index t (1 : Fin 2) * 2048 + 1 * J.val = J.val; omega
  rw [e]
  exact (congrFun (V_ws m c) (ix2 k J)).trans (KHost.ws_apply (aWxs m c) (aWxg m c) k J)

theorem bBs_apply (c : Dev nD) (t : Fin cfg0.N) (J : Fin 2048) :
    bBs m c t (ix2 (0 : Fin 1) J) = if hJ : J.val < 1024 then abxs m c (ix1 (⟨J.val, hJ⟩ : Fin 1024))
      else abxg m c (ix1 (⟨J.val - 1024, by have := J.isLt; omega⟩ : Fin 1024)) := by
  show V m c main_v12 (((cfg0.win 6).blk t).view.emb (ix2 (0 : Fin 1) J)) = _
  have e : ((cfg0.win 6).blk t).view.emb (ix2 (0 : Fin 1) J) = ix2 (0 : Fin 1) J := by
    funext a; apply Fin.ext
    obtain ⟨-, -, -, -, -, -, ⟨e0, e1⟩, -⟩ := idx_facts t
    match a with
    | ⟨0, _⟩ => show win0_6.index t (0 : Fin 2) * 1 + 1 * (0 : Fin 1).val = (0 : Fin 1).val; omega
    | ⟨1, _⟩ => show win0_6.index t (1 : Fin 2) * 2048 + 1 * J.val = J.val; omega
  rw [e]
  exact (congrFun (V_bs m c) (ix2 (0 : Fin 1) J)).trans (KHost.bs_apply (abxs m c) (abxg m c) J)

theorem bWh_apply (c : Dev nD) (t : Fin cfg0.N) (k j : Fin 1024) :
    bWh m c t (ix2 k j) = aWhg m c (ix2 j k) := by
  show V m c main_v14 (((cfg0.win 7).blk t).view.emb (ix2 k j)) = _
  have e : ((cfg0.win 7).blk t).view.emb (ix2 k j) = ix2 k j := by
    funext a; apply Fin.ext
    obtain ⟨-, -, -, -, -, -, -, ⟨e0, e1⟩, -⟩ := idx_facts t
    match a with
    | ⟨0, _⟩ => show win0_7.index t (0 : Fin 2) * 1024 + 1 * k.val = k.val; omega
    | ⟨1, _⟩ => show win0_7.index t (1 : Fin 2) * 1024 + 1 * j.val = j.val; omega
  rw [e]
  exact (congrFun (V_wh m c) (ix2 k j)).trans (KHost.wh_apply (aWhg m c) k j)

theorem bBh_apply (c : Dev nD) (t : Fin cfg0.N) (j : Fin 1024) :
    bBh m c t (ix2 (0 : Fin 1) j) = abhg m c (ix1 j) := by
  show V m c main_v15 (((cfg0.win 8).blk t).view.emb (ix2 (0 : Fin 1) j)) = _
  have e : ((cfg0.win 8).blk t).view.emb (ix2 (0 : Fin 1) j) = ix2 (0 : Fin 1) j := by
    funext a; apply Fin.ext
    obtain ⟨-, -, -, -, -, -, -, -, ⟨e0, e1⟩, -⟩ := idx_facts t
    match a with
    | ⟨0, _⟩ => show win0_8.index t (0 : Fin 2) * 1 + 1 * (0 : Fin 1).val = (0 : Fin 1).val; omega
    | ⟨1, _⟩ => show win0_8.index t (1 : Fin 2) * 1024 + 1 * j.val = j.val; omega
  rw [e]
  exact (congrFun (V_bh m c) (ix2 (0 : Fin 1) j)).trans (KHost.bh_apply (abhg m c) j)

/-! ### The tile's cell is the cell at row 128·t + r -/

theorem blkXH_eq (c : Dev nD) (t : Fin cfg0.N) (r : Fin 128) :
    Spec.blkXH (bX m c t) (bHp m c t) r = Spec.catXH (aX m c) (aH m c) (rowOf t r) := by
  funext k
  unfold Spec.blkXH Spec.catXH
  split
  · exact bX_apply m c t r _
  · exact bHp_apply m c t r _

theorem blkZ_eq (c : Dev nD) (t : Fin cfg0.N) (r : Fin 128) (J : Fin 3072) :
    Spec.blkZ (bX m c t) (bHp m c t) (bWg m c t) (bBg m c t) r J
      = Spec.gatePre (aX m c) (aH m c) (aWi m c) (aWf m c) (aWo m c) (abi m c) (abf m c) (abo m c) (rowOf t r) J := by
  unfold Spec.blkZ Spec.gatePre
  rw [blkXH_eq, bBg_apply, show (fun k : Fin 2048 => bWg m c t (ix2 k J)) = Spec.catW3 (aWi m c) (aWf m c) (aWo m c) J from
    funext fun k => bWg_apply m c t k J]

theorem rowX_eq (c : Dev nD) (t : Fin cfg0.N) (r : Fin 128) :
    (fun k : Fin 1024 => bX m c t (ix2 r k)) = fun k : Fin 1024 => aX m c (ix2 (rowOf t r) k) := funext fun k => bX_apply m c t r k
theorem rowH_eq (c : Dev nD) (t : Fin cfg0.N) (r : Fin 128) :
    (fun k : Fin 1024 => bHp m c t (ix2 r k)) = fun k : Fin 1024 => aH m c (ix2 (rowOf t r) k) := funext fun k => bHp_apply m c t r k
theorem colWxs_eq (c : Dev nD) (t : Fin cfg0.N) (j : Fin 1024) (hj : j.val < 2048) :
    (fun k : Fin 1024 => bWs m c t (ix2 k (⟨j.val, hj⟩ : Fin 2048))) = fun k : Fin 1024 => aWxs m c (ix2 j k) := funext fun k => by
  rw [bWs_apply, dif_pos (show (⟨j.val, hj⟩ : Fin 2048).val < 1024 from j.isLt)]
theorem colWxg_eq (c : Dev nD) (t : Fin cfg0.N) (j : Fin 1024) (hj : 1024 + j.val < 2048) :
    (fun k : Fin 1024 => bWs m c t (ix2 k (⟨1024 + j.val, hj⟩ : Fin 2048))) = fun k : Fin 1024 => aWxg m c (ix2 j k) := funext fun k => by
  rw [bWs_apply, dif_neg (show ¬ (⟨1024 + j.val, hj⟩ : Fin 2048).val < 1024 from by show ¬ 1024 + j.val < 1024; omega)]
  exact congrArg (fun q : Fin 1024 => aWxg m c (ix2 q k)) (Fin.ext (by show 1024 + j.val - 1024 = j.val; omega))
theorem colWhg_eq (c : Dev nD) (t : Fin cfg0.N) (j : Fin 1024) :
    (fun k : Fin 1024 => bWh m c t (ix2 k j)) = fun k : Fin 1024 => aWhg m c (ix2 j k) := funext fun k => bWh_apply m c t k j
theorem bxs_eq (c : Dev nD) (t : Fin cfg0.N) (j : Fin 1024) (hj : j.val < 2048) :
    bBs m c t (ix2 (0 : Fin 1) (⟨j.val, hj⟩ : Fin 2048)) = abxs m c (ix1 j) := by
  rw [bBs_apply, dif_pos (show (⟨j.val, hj⟩ : Fin 2048).val < 1024 from j.isLt)]
theorem bxg_eq (c : Dev nD) (t : Fin cfg0.N) (j : Fin 1024) (hj : 1024 + j.val < 2048) :
    bBs m c t (ix2 (0 : Fin 1) (⟨1024 + j.val, hj⟩ : Fin 2048)) = abxg m c (ix1 j) := by
  rw [bBs_apply, dif_neg (show ¬ (⟨1024 + j.val, hj⟩ : Fin 2048).val < 1024 from by show ¬ 1024 + j.val < 1024; omega)]
  exact congrArg (fun q : Fin 1024 => abxg m c (ix1 q)) (Fin.ext (by show 1024 + j.val - 1024 = j.val; omega))

theorem blkC_eq (c : Dev nD) (t : Fin cfg0.N) (r : Fin 128) (j : Fin 1024) :
    Spec.blkC (bX m c t) (bHp m c t) (bCp m c t) (bWg m c t) (bBg m c t) (bWs m c t) (bBs m c t) (bWh m c t) (bBh m c t) r j
      = Spec.newC (aX m c) (aH m c) (aC m c) (aWi m c) (aWf m c) (aWo m c) (abi m c) (abf m c) (abo m c) (aWxs m c) (aWxg m c) (aWhg m c) (abxs m c) (abxg m c) (abhg m c) (rowOf t r) j := by
  unfold Spec.blkC Spec.newC Spec.lin
  rw [blkZ_eq, blkZ_eq, bCp_apply, rowX_eq, rowH_eq, colWxs_eq, colWxg_eq, colWhg_eq, bxs_eq, bxg_eq, bBh_apply]

theorem blkH_eq (c : Dev nD) (t : Fin cfg0.N) (r : Fin 128) (j : Fin 1024) :
    Spec.blkH (bX m c t) (bHp m c t) (bCp m c t) (bWg m c t) (bBg m c t) (bWs m c t) (bBs m c t) (bWh m c t) (bBh m c t) r j
      = Spec.newH (aX m c) (aH m c) (aC m c) (aWi m c) (aWf m c) (aWo m c) (abi m c) (abf m c) (abo m c) (aWxs m c) (aWxg m c) (aWhg m c) (abxs m c) (abxg m c) (abhg m c) (rowOf t r) j := by
  unfold Spec.blkH Spec.newH
  rw [blkZ_eq, blkC_eq]

/-! ## What a point writes back -/

theorem hz : (![0, 0] : Fin 2 → Nat) = fun _ => 0 := funext fun a => by fin_cases a <;> rfl

/-- Point t writes block t of the new hidden state of the arguments into the first result array. -/
theorem flushedH_eq (c : Dev nD) (t : Fin cfg0.N) :
    (dats m 0 c).flushed 9 t = ((cfg0.win 9).blk t).view.read (Elt Ideal) (GH m c) := by
  show (cfg0.win 9).cut (grid0.coords t) ((dats m 0 c).after 9 t) = _
  rw [after9]
  unfold outH
  rw [View.canon_unit_zero hz]
  simp only [View.ld_unit_zero (S := S128x1024) hz, View.ld_unit_zero (S := S2048x3072) hz, View.ld_unit_zero (S := S1x3072) hz,
    View.ld_unit_zero (S := S1024x2048) hz, View.ld_unit_zero (S := S1x2048) hz, View.ld_unit_zero (S := S1024x1024) hz,
    View.ld_unit_zero (S := S1x1024) hz]
  funext j
  obtain ⟨r, q, rfl⟩ : ∃ (r : Fin 128) (q : Fin 1024), j = ix2 r q := ⟨j 0, j 1, eq_ix2 j⟩
  show k0_pay2 (F := Ideal) (k0_pay6 (bX m c t) (bHp m c t) (bWg m c t) (bBg m c t)) (k0_pay7 (bX m c t) (bHp m c t) (bCp m c t) (bWg m c t) (bBg m c t))
      (k0_pay8 (bX m c t) (bHp m c t) (bWg m c t) (bBg m c t) (bWs m c t) (bBs m c t) (bWh m c t) (bBh m c t)) (ix2 r q)
    = GH m c (((cfg0.win 9).blk t).view.emb (ix2 r q))
  rw [KValue.payH_apply, blkH_eq]
  have e : ((cfg0.win 9).blk t).view.emb (ix2 r q) = ix2 (rowOf t r) q := by
    funext a; apply Fin.ext
    obtain ⟨-, -, -, -, -, -, -, -, -, ⟨e0, e1⟩, -⟩ := idx_facts t
    match a with
    | ⟨0, _⟩ => show win0_9.index t (0 : Fin 2) * 128 + 1 * r.val = 128 * t.val + r.val; omega
    | ⟨1, _⟩ => show win0_9.index t (1 : Fin 2) * 1024 + 1 * q.val = q.val; omega
  rw [e]
  rfl

/-- Point t writes block t of the new cell state of the arguments into the second result array. -/
theorem flushedC_eq (c : Dev nD) (t : Fin cfg0.N) :
    (dats m 0 c).flushed 10 t = ((cfg0.win 10).blk t).view.read (Elt Ideal) (GC m c) := by
  show (cfg0.win 10).cut (grid0.coords t) ((dats m 0 c).after 10 t) = _
  rw [after10]
  unfold outC
  rw [View.canon_unit_zero hz]
  simp only [View.ld_unit_zero (S := S128x1024) hz, View.ld_unit_zero (S := S2048x3072) hz, View.ld_unit_zero (S := S1x3072) hz,
    View.ld_unit_zero (S := S1024x2048) hz, View.ld_unit_zero (S := S1x2048) hz, View.ld_unit_zero (S := S1024x1024) hz,
    View.ld_unit_zero (S := S1x1024) hz]
  funext j
  obtain ⟨r, q, rfl⟩ : ∃ (r : Fin 128) (q : Fin 1024), j = ix2 r q := ⟨j 0, j 1, eq_ix2 j⟩
  show k0_pay1 (F := Ideal) (k0_pay7 (bX m c t) (bHp m c t) (bCp m c t) (bWg m c t) (bBg m c t))
      (k0_pay8 (bX m c t) (bHp m c t) (bWg m c t) (bBg m c t) (bWs m c t) (bBs m c t) (bWh m c t) (bBh m c t)) (ix2 r q)
    = GC m c (((cfg0.win 10).blk t).view.emb (ix2 r q))
  rw [KValue.payC_apply, blkC_eq]
  have e : ((cfg0.win 10).blk t).view.emb (ix2 r q) = ix2 (rowOf t r) q := by
    funext a; apply Fin.ext
    obtain ⟨-, -, -, -, -, -, -, -, -, -, ⟨e0, e1⟩⟩ := idx_facts t
    match a with
    | ⟨0, _⟩ => show win0_10.index t (0 : Fin 2) * 128 + 1 * r.val = 128 * t.val + r.val; omega
    | ⟨1, _⟩ => show win0_10.index t (1 : Fin 2) * 1024 + 1 * q.val = q.val; omega
  rw [e]
  rfl

/-! ## The 32 blocks tile each result array -/

theorem mem_blk9 (t : Fin cfg0.N) (i : S4096x1024.Idx) :
    i ∈ ((cfg0.win 9).blk t).view.set ↔ ∀ a : Fin 2, win0_9.index t a * S128x1024.size a ≤ (i a).val ∧ (i a).val < win0_9.index t a * S128x1024.size a + S128x1024.size a := by
  show i ∈ ((View.whole main_v16_0).slice (win0_9.rect t)).set ↔ _
  rw [View.set_slice_whole, Rect.mem_set_unit]
  exact Iff.rfl

theorem mem_blk10 (t : Fin cfg0.N) (i : S4096x1024.Idx) :
    i ∈ ((cfg0.win 10).blk t).view.set ↔ ∀ a : Fin 2, win0_10.index t a * S128x1024.size a ≤ (i a).val ∧ (i a).val < win0_10.index t a * S128x1024.size a + S128x1024.size a := by
  show i ∈ ((View.whole main_v16_1).slice (win0_10.rect t)).set ↔ _
  rw [View.set_slice_whole, Rect.mem_set_unit]
  exact Iff.rfl

/-- The point whose tile holds batch row i₀: i₀ / 128. -/
def pointOf (i : S4096x1024.Idx) : Fin cfg0.N :=
  ⟨(i 0).val / 128, by have h : (i 0).val < 4096 := (i 0).isLt; show (i 0).val / 128 < grid0.N; rw [N_0]; omega⟩

theorem cover9 (i : S4096x1024.Idx) : ∃ t : Fin cfg0.N, (cfg0.win 9).flush t = true ∧ i ∈ ((cfg0.win 9).blk t).view.set := by
  refine ⟨pointOf i, flush0_9 _, ?_⟩
  rw [mem_blk9]
  have hi0 : (i 0).val < 4096 := (i 0).isLt
  have hi1 : (i 1).val < 1024 := (i 1).isLt
  obtain ⟨-, -, -, -, -, -, -, -, -, ⟨e0, e1⟩, -⟩ := idx_facts (pointOf i)
  have ht : (pointOf i).val = (i 0).val / 128 := rfl
  intro a
  match a with
  | ⟨0, _⟩ => show win0_9.index (pointOf i) (0 : Fin 2) * 128 ≤ (i 0).val ∧ (i 0).val < win0_9.index (pointOf i) (0 : Fin 2) * 128 + 128; omega
  | ⟨1, _⟩ => show win0_9.index (pointOf i) (1 : Fin 2) * 1024 ≤ (i 1).val ∧ (i 1).val < win0_9.index (pointOf i) (1 : Fin 2) * 1024 + 1024; omega

theorem cover10 (i : S4096x1024.Idx) : ∃ t : Fin cfg0.N, (cfg0.win 10).flush t = true ∧ i ∈ ((cfg0.win 10).blk t).view.set := by
  refine ⟨pointOf i, flush0_10 _, ?_⟩
  rw [mem_blk10]
  have hi0 : (i 0).val < 4096 := (i 0).isLt
  have hi1 : (i 1).val < 1024 := (i 1).isLt
  obtain ⟨-, -, -, -, -, -, -, -, -, -, ⟨e0, e1⟩⟩ := idx_facts (pointOf i)
  have ht : (pointOf i).val = (i 0).val / 128 := rfl
  intro a
  match a with
  | ⟨0, _⟩ => show win0_10.index (pointOf i) (0 : Fin 2) * 128 ≤ (i 0).val ∧ (i 0).val < win0_10.index (pointOf i) (0 : Fin 2) * 128 + 128; omega
  | ⟨1, _⟩ => show win0_10.index (pointOf i) (1 : Fin 2) * 1024 ≤ (i 1).val ∧ (i 1).val < win0_10.index (pointOf i) (1 : Fin 2) * 1024 + 1024; omega

/-- After the run the first result array is the new hidden state of the arguments, -/
theorem finalH (c : Dev nD) : (dats m 0 c).arrAt 9 cfg0.N = GH m c :=
  (dats m 0 c).arrAt_eq_of_cover 9 (GH m c) (fun t _ => flushedH_eq m c t) cover9

/-- and the second the new cell state. -/
theorem finalC (c : Dev nD) : (dats m 0 c).arrAt 10 cfg0.N = GC m c :=
  (dats m 0 c).arrAt_eq_of_cover 10 (GC m c) (fun t _ => flushedC_eq m c t) cover10

/-! ## The run, read -/

/-- Every weakly fair execution of the idealized kernel's program terminates with the two result arrays at the cell of
    the arguments and the arguments as launched. -/
theorem run : θ_run defs (onTc (τ := τ) (main (F := Ideal))) ⟨m, fun _ => 0, ρ⟩ fun r => ∀ c : Dev nD,
      r.2.mem ((c.tc : Thread nD τ).loc main_v16_0) = GH m c
      ∧ r.2.mem ((c.tc : Thread nD τ).loc main_v16_1) = GC m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c => ⟨((h c).1 9).trans (finalH m c), ((h c).1 10).trans (finalC m c),
      args_kept m (dats m) (A_eq m) r h c⟩)
    (run_main m ρ)

end Cert.KernelIdeal.Result

end
-- ==== Proof.RefG.lean ====
/-
  The reference is the cell.

  The reference program computes, stage by stage, the joined row [x | h], the three gate matrices stacked, the
  stacked bias, one product for all three gates, the logistic spelled 1 / (1 + e^(-z)), the three linear layers,
  and the cell's two results. Read at an index (p, j), each stage is the corresponding term of the cell over the
  extended reals; the two results are the arrays arrC and arrH.
-/
import proofs.«107532_j54150947668389_1_alg».proof.Proof.Gen.ReferenceIdeal.Read
import proofs.«107532_j54150947668389_1_alg».proof.Proof.Spec
import Idealize.ShloMosaic.Lib.Pipeline.Value
import Idealize.ShloMosaic.Lib.ValueIdx
import Idealize.ShloMosaic.PureOps.Ideal
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-! ## The three concatenations read at an index -/

/-- The joined row at (p, k) is x's entry for k < 1024 and h's entry at k - 1024 past it. -/
theorem v0_read (x0 x1 : (⟨S4096x1024, .f32⟩ : BufTy).Contents (Elt Ideal)) (p : Fin 4096) (k : Fin 2048) :
    val_main_v0 (F := Ideal) x0 x1 (ix2 p k) = Cert.Spec.catXH x0 x1 p k := by
  unfold val_main_v0 Cert.Spec.catXH
  by_cases hk : k.val < 1024
  · rw [dif_pos hk]
    exact concatenate_pair_apply_left 1 x0 x1 concatenates_S4096x1024_S4096x1024_S4096x2048_d1 (ix2 p k) rfl
      (ix2 p ⟨k.val, hk⟩) (fun b => match b with | ⟨0, _⟩ => rfl | ⟨1, _⟩ => rfl)
  · rw [dif_neg hk]
    exact concatenate_pair_apply_right 1 x0 x1 concatenates_S4096x1024_S4096x1024_S4096x2048_d1 (ix2 p k) rfl rfl
      (ix2 p ⟨k.val - 1024, by have := k.isLt; omega⟩)
      (fun b hb => match b, hb with | ⟨0, _⟩, _ => rfl | ⟨1, _⟩, hb => absurd rfl hb)
      (by show k.val - 1024 + 1024 = k.val; omega)

/-- Row J of the stacked matrix is row J of the first, J - 1024 of the second, or J - 2048 of the third. -/
theorem v1_read (x3 x5 x7 : (⟨S1024x2048, .f32⟩ : BufTy).Contents (Elt Ideal)) (J : Fin 3072) (k : Fin 2048) :
    val_main_v1 (F := Ideal) x3 x5 x7 (ix2 J k) = Cert.Spec.catW3 x3 x5 x7 J k := by
  unfold val_main_v1 Cert.Spec.catW3
  by_cases h1 : J.val < 1024
  · rw [dif_pos h1]
    exact concatenate_apply_piece 0 [⟨S1024x2048, x3⟩, ⟨S1024x2048, x5⟩, ⟨S1024x2048, x7⟩]
        concatenates_S1024x2048_S1024x2048_S1024x2048_S3072x2048_d0 (ix2 J k)
      0 (by show (0 : Nat) < 3; omega) S1024x2048 x3 rfl rfl 0 rfl (ix2 ⟨J.val, h1⟩ k)
      (fun b hb => match b, hb with | ⟨0, _⟩, hb => absurd rfl hb | ⟨1, _⟩, _ => rfl)
      (by show 0 + J.val = J.val; omega)
  · rw [dif_neg h1]
    by_cases h2 : J.val < 2048
    · rw [dif_pos h2]
      exact concatenate_apply_piece 0 [⟨S1024x2048, x3⟩, ⟨S1024x2048, x5⟩, ⟨S1024x2048, x7⟩]
        concatenates_S1024x2048_S1024x2048_S1024x2048_S3072x2048_d0 (ix2 J k)
        1 (by show (1 : Nat) < 3; omega) S1024x2048 x5 rfl rfl 1024 rfl (ix2 ⟨J.val - 1024, by omega⟩ k)
        (fun b hb => match b, hb with | ⟨0, _⟩, hb => absurd rfl hb | ⟨1, _⟩, _ => rfl)
        (by show 1024 + (J.val - 1024) = J.val; omega)
    · rw [dif_neg h2]
      exact concatenate_apply_piece 0 [⟨S1024x2048, x3⟩, ⟨S1024x2048, x5⟩, ⟨S1024x2048, x7⟩]
        concatenates_S1024x2048_S1024x2048_S1024x2048_S3072x2048_d0 (ix2 J k)
        2 (by show (2 : Nat) < 3; omega) S1024x2048 x7 rfl rfl 2048 rfl (ix2 ⟨J.val - 2048, by have := J.isLt; omega⟩ k)
        (fun b hb => match b, hb with | ⟨0, _⟩, hb => absurd rfl hb | ⟨1, _⟩, _ => rfl)
        (by show 2048 + (J.val - 2048) = J.val; omega)

/-- Entry J of the stacked bias is entry J of the first, J - 1024 of the second, or J - 2048 of the third. -/
theorem v2_read (x4 x6 x8 : (⟨S1024, .f32⟩ : BufTy).Contents (Elt Ideal)) (J : Fin 3072) :
    val_main_v2 (F := Ideal) x4 x6 x8 (ix1 J) = Cert.Spec.catB3 x4 x6 x8 J := by
  unfold val_main_v2 Cert.Spec.catB3
  by_cases h1 : J.val < 1024
  · rw [dif_pos h1]
    exact concatenate_apply_piece 0 [⟨S1024, x4⟩, ⟨S1024, x6⟩, ⟨S1024, x8⟩]
        concatenates_S1024_S1024_S1024_S3072_d0 (ix1 J)
      0 (by show (0 : Nat) < 3; omega) S1024 x4 rfl rfl 0 rfl (ix1 ⟨J.val, h1⟩)
      (fun b hb => match b, hb with | ⟨0, _⟩, hb => absurd rfl hb)
      (by show 0 + J.val = J.val; omega)
  · rw [dif_neg h1]
    by_cases h2 : J.val < 2048
    · rw [dif_pos h2]
      exact concatenate_apply_piece 0 [⟨S1024, x4⟩, ⟨S1024, x6⟩, ⟨S1024, x8⟩]
        concatenates_S1024_S1024_S1024_S3072_d0 (ix1 J)
        1 (by show (1 : Nat) < 3; omega) S1024 x6 rfl rfl 1024 rfl (ix1 ⟨J.val - 1024, by omega⟩)
        (fun b hb => match b, hb with | ⟨0, _⟩, hb => absurd rfl hb)
        (by show 1024 + (J.val - 1024) = J.val; omega)
    · rw [dif_neg h2]
      exact concatenate_apply_piece 0 [⟨S1024, x4⟩, ⟨S1024, x6⟩, ⟨S1024, x8⟩]
        concatenates_S1024_S1024_S1024_S3072_d0 (ix1 J)
        2 (by show (2 : Nat) < 3; omega) S1024 x8 rfl rfl 2048 rfl (ix1 ⟨J.val - 2048, by have := J.isLt; omega⟩)
        (fun b hb => match b, hb with | ⟨0, _⟩, hb => absurd rfl hb)
        (by show 2048 + (J.val - 2048) = J.val; omega)

/-! ## The gate pre-activation and the three linear layers -/

/-- The fused product plus the stacked bias, at batch row p and gate column J, is that gate's pre-activation. -/
theorem v7_read (x0 x1 : (⟨S4096x1024, .f32⟩ : BufTy).Contents (Elt Ideal)) (x3 : (⟨S1024x2048, .f32⟩ : BufTy).Contents (Elt Ideal)) (x4 : (⟨S1024, .f32⟩ : BufTy).Contents (Elt Ideal)) (x5 : (⟨S1024x2048, .f32⟩ : BufTy).Contents (Elt Ideal)) (x6 : (⟨S1024, .f32⟩ : BufTy).Contents (Elt Ideal)) (x7 : (⟨S1024x2048, .f32⟩ : BufTy).Contents (Elt Ideal)) (x8 : (⟨S1024, .f32⟩ : BufTy).Contents (Elt Ideal))
    (p : Fin 4096) (J : Fin 3072) :
    val_main_v7 (F := Ideal) x0 x1 x3 x4 x5 x6 x7 x8 (ix2 p J) = Cert.Spec.gatePre x0 x1 x3 x5 x7 x4 x6 x8 p J := by
  rw [val_main_v7_apply, val_main_v4_apply, val_main_v6_apply, val_main_v5_apply]
  have eb : idx_main_v5 (idx_main_v6 (ix2 p J)) = ix1 J :=
    funext fun a => Fin.ext (by match a with | ⟨0, _⟩ => rfl)
  rw [eb, v2_read]
  unfold Cert.Spec.gatePre Cert.Spec.dotb
  show (∑ k : Fin 2048, _) + _ = _
  congr 1
  refine Finset.sum_congr rfl fun k _ => ?_
  rw [val_main_v3_apply]
  have el : lidx_main_v4 (ix2 p J) k = ix2 p k :=
    funext fun a => Fin.ext (by match a with | ⟨0, _⟩ => rfl | ⟨1, _⟩ => rfl)
  have er : idx_main_v3 (ridx_main_v4 (ix2 p J) k) = ix2 J k :=
    funext fun a => Fin.ext (by match a with | ⟨0, _⟩ => rfl | ⟨1, _⟩ => rfl)
  rw [el, er, v0_read, v1_read]

/-- The first linear layer of the candidate, x · Wxsᵀ + bxs. -/
theorem v21_read (x0 : (⟨S4096x1024, .f32⟩ : BufTy).Contents (Elt Ideal)) (x9 : (⟨S1024x1024, .f32⟩ : BufTy).Contents (Elt Ideal)) (x10 : (⟨S1024, .f32⟩ : BufTy).Contents (Elt Ideal))
    (p : Fin 4096) (j : Fin 1024) :
    val_main_v21 (F := Ideal) x0 x9 x10 (ix2 p j) = Cert.Spec.lin x0 x9 x10 p j := by
  rw [val_main_v21_apply, val_main_v18_apply, val_main_v20_apply, val_main_v19_apply]
  have eb : idx_main_v19 (idx_main_v20 (ix2 p j)) = ix1 j :=
    funext fun a => Fin.ext (by match a with | ⟨0, _⟩ => rfl)
  rw [eb]
  unfold Cert.Spec.lin Cert.Spec.dotb
  show (∑ k : Fin 1024, _) + _ = _
  congr 1
  refine Finset.sum_congr rfl fun k _ => ?_
  rw [val_main_v17_apply]
  have el : lidx_main_v18 (ix2 p j) k = ix2 p k :=
    funext fun a => Fin.ext (by match a with | ⟨0, _⟩ => rfl | ⟨1, _⟩ => rfl)
  have er : idx_main_v17 (ridx_main_v18 (ix2 p j) k) = ix2 j k :=
    funext fun a => Fin.ext (by match a with | ⟨0, _⟩ => rfl | ⟨1, _⟩ => rfl)
  rw [el, er]

/-- The second linear layer of the candidate, x · Wxgᵀ + bxg. -/
theorem v26_read (x0 : (⟨S4096x1024, .f32⟩ : BufTy).Contents (Elt Ideal)) (x11 : (⟨S1024x1024, .f32⟩ : BufTy).Contents (Elt Ideal)) (x12 : (⟨S1024, .f32⟩ : BufTy).Contents (Elt Ideal))
    (p : Fin 4096) (j : Fin 1024) :
    val_main_v26 (F := Ideal) x0 x11 x12 (ix2 p j) = Cert.Spec.lin x0 x11 x12 p j := by
  rw [val_main_v26_apply, val_main_v23_apply, val_main_v25_apply, val_main_v24_apply]
  have eb : idx_main_v24 (idx_main_v25 (ix2 p j)) = ix1 j :=
    funext fun a => Fin.ext (by match a with | ⟨0, _⟩ => rfl)
  rw [eb]
  unfold Cert.Spec.lin Cert.Spec.dotb
  show (∑ k : Fin 1024, _) + _ = _
  congr 1
  refine Finset.sum_congr rfl fun k _ => ?_
  rw [val_main_v22_apply]
  have el : lidx_main_v23 (ix2 p j) k = ix2 p k :=
    funext fun a => Fin.ext (by match a with | ⟨0, _⟩ => rfl | ⟨1, _⟩ => rfl)
  have er : idx_main_v22 (ridx_main_v23 (ix2 p j) k) = ix2 j k :=
    funext fun a => Fin.ext (by match a with | ⟨0, _⟩ => rfl | ⟨1, _⟩ => rfl)
  rw [el, er]

/-- The third linear layer of the candidate, h · Whgᵀ + bhg. -/
theorem v31_read (x1 : (⟨S4096x1024, .f32⟩ : BufTy).Contents (Elt Ideal)) (x13 : (⟨S1024x1024, .f32⟩ : BufTy).Contents (Elt Ideal)) (x14 : (⟨S1024, .f32⟩ : BufTy).Contents (Elt Ideal))
    (p : Fin 4096) (j : Fin 1024) :
    val_main_v31 (F := Ideal) x1 x13 x14 (ix2 p j) = Cert.Spec.lin x1 x13 x14 p j := by
  rw [val_main_v31_apply, val_main_v28_apply, val_main_v30_apply, val_main_v29_apply]
  have eb : idx_main_v29 (idx_main_v30 (ix2 p j)) = ix1 j :=
    funext fun a => Fin.ext (by match a with | ⟨0, _⟩ => rfl)
  rw [eb]
  unfold Cert.Spec.lin Cert.Spec.dotb
  show (∑ k : Fin 1024, _) + _ = _
  congr 1
  refine Finset.sum_congr rfl fun k _ => ?_
  rw [val_main_v27_apply]
  have el : lidx_main_v28 (ix2 p j) k = ix2 p k :=
    funext fun a => Fin.ext (by match a with | ⟨0, _⟩ => rfl | ⟨1, _⟩ => rfl)
  have er : idx_main_v27 (ridx_main_v28 (ix2 p j) k) = ix2 j k :=
    funext fun a => Fin.ext (by match a with | ⟨0, _⟩ => rfl | ⟨1, _⟩ => rfl)
  rw [el, er]

/-! ## The logistic, spelled 1 / (1 + e^(-z)), and the three gate slices -/

/-- The literal the reference writes for one. -/
theorem one_bits : Ideal.ofBits .f32 0x3F800000#32 = 1 := by
  simp [Ideal.ofBits, Ideal.ieee, -EReal.coe_mul]; norm_num

/-- The reference's 1 / (1 + e^(-z)) at (p, J) is the logistic of that gate's pre-activation. -/
theorem v13_read (x0 x1 : (⟨S4096x1024, .f32⟩ : BufTy).Contents (Elt Ideal)) (x3 : (⟨S1024x2048, .f32⟩ : BufTy).Contents (Elt Ideal)) (x4 : (⟨S1024, .f32⟩ : BufTy).Contents (Elt Ideal)) (x5 : (⟨S1024x2048, .f32⟩ : BufTy).Contents (Elt Ideal)) (x6 : (⟨S1024, .f32⟩ : BufTy).Contents (Elt Ideal)) (x7 : (⟨S1024x2048, .f32⟩ : BufTy).Contents (Elt Ideal)) (x8 : (⟨S1024, .f32⟩ : BufTy).Contents (Elt Ideal))
    (p : Fin 4096) (J : Fin 3072) :
    val_main_v13 (F := Ideal) x0 x1 x3 x4 x5 x6 x7 x8 (ix2 p J)
      = Ideal.logistic (Cert.Spec.gatePre x0 x1 x3 x5 x7 x4 x6 x8 p J) := by
  rw [val_main_v13_apply, val_main_v12_apply, val_main_cst_0_apply, val_main_v11_apply, val_main_v10_apply,
    val_main_cst_apply, val_main_v9_apply, val_main_v8_apply, v7_read]
  show Ideal.div (Ideal.ofBits .f32 0x3F800000#32) (Ideal.ofBits .f32 0x3F800000#32 + Ideal.exp (-_)) = _
  rw [one_bits]
  rfl

/-- The first slice of the gates is the input gate. -/
theorem v14_read (x0 x1 : (⟨S4096x1024, .f32⟩ : BufTy).Contents (Elt Ideal)) (x3 : (⟨S1024x2048, .f32⟩ : BufTy).Contents (Elt Ideal)) (x4 : (⟨S1024, .f32⟩ : BufTy).Contents (Elt Ideal)) (x5 : (⟨S1024x2048, .f32⟩ : BufTy).Contents (Elt Ideal)) (x6 : (⟨S1024, .f32⟩ : BufTy).Contents (Elt Ideal)) (x7 : (⟨S1024x2048, .f32⟩ : BufTy).Contents (Elt Ideal)) (x8 : (⟨S1024, .f32⟩ : BufTy).Contents (Elt Ideal))
    (p : Fin 4096) (j : Fin 1024) :
    val_main_v14 (F := Ideal) x0 x1 x3 x4 x5 x6 x7 x8 (ix2 p j)
      = Ideal.logistic (Cert.Spec.gatePre x0 x1 x3 x5 x7 x4 x6 x8 p ⟨j.val, by have := j.isLt; omega⟩) := by
  rw [val_main_v14_apply]
  have e : idx_main_v14 (ix2 p j) = ix2 p (⟨j.val, by have := j.isLt; omega⟩ : Fin 3072) :=
    funext fun a => Fin.ext (by match a with | ⟨0, _⟩ => rfl | ⟨1, _⟩ => rfl)
  rw [e, v13_read]

/-- The second slice of the gates is the forget gate. -/
theorem v15_read (x0 x1 : (⟨S4096x1024, .f32⟩ : BufTy).Contents (Elt Ideal)) (x3 : (⟨S1024x2048, .f32⟩ : BufTy).Contents (Elt Ideal)) (x4 : (⟨S1024, .f32⟩ : BufTy).Contents (Elt Ideal)) (x5 : (⟨S1024x2048, .f32⟩ : BufTy).Contents (Elt Ideal)) (x6 : (⟨S1024, .f32⟩ : BufTy).Contents (Elt Ideal)) (x7 : (⟨S1024x2048, .f32⟩ : BufTy).Contents (Elt Ideal)) (x8 : (⟨S1024, .f32⟩ : BufTy).Contents (Elt Ideal))
    (p : Fin 4096) (j : Fin 1024) :
    val_main_v15 (F := Ideal) x0 x1 x3 x4 x5 x6 x7 x8 (ix2 p j)
      = Ideal.logistic (Cert.Spec.gatePre x0 x1 x3 x5 x7 x4 x6 x8 p ⟨1024 + j.val, by have := j.isLt; omega⟩) := by
  rw [val_main_v15_apply]
  have e : idx_main_v15 (ix2 p j) = ix2 p (⟨1024 + j.val, by have := j.isLt; omega⟩ : Fin 3072) :=
    funext fun a => Fin.ext (by match a with | ⟨0, _⟩ => rfl | ⟨1, _⟩ => rfl)
  rw [e, v13_read]

/-- The third slice of the gates is the output gate. -/
theorem v16_read (x0 x1 : (⟨S4096x1024, .f32⟩ : BufTy).Contents (Elt Ideal)) (x3 : (⟨S1024x2048, .f32⟩ : BufTy).Contents (Elt Ideal)) (x4 : (⟨S1024, .f32⟩ : BufTy).Contents (Elt Ideal)) (x5 : (⟨S1024x2048, .f32⟩ : BufTy).Contents (Elt Ideal)) (x6 : (⟨S1024, .f32⟩ : BufTy).Contents (Elt Ideal)) (x7 : (⟨S1024x2048, .f32⟩ : BufTy).Contents (Elt Ideal)) (x8 : (⟨S1024, .f32⟩ : BufTy).Contents (Elt Ideal))
    (p : Fin 4096) (j : Fin 1024) :
    val_main_v16 (F := Ideal) x0 x1 x3 x4 x5 x6 x7 x8 (ix2 p j)
      = Ideal.logistic (Cert.Spec.gatePre x0 x1 x3 x5 x7 x4 x6 x8 p ⟨2048 + j.val, by have := j.isLt; omega⟩) := by
  rw [val_main_v16_apply]
  have e : idx_main_v16 (ix2 p j) = ix2 p (⟨2048 + j.val, by have := j.isLt; omega⟩ : Fin 3072) :=
    funext fun a => Fin.ext (by match a with | ⟨0, _⟩ => rfl | ⟨1, _⟩ => rfl)
  rw [e, v13_read]

/-! ## The two results -/

/-- The reference's new cell state at (p, j). -/
theorem v37_read (x0 x1 x2 : (⟨S4096x1024, .f32⟩ : BufTy).Contents (Elt Ideal)) (x3 : (⟨S1024x2048, .f32⟩ : BufTy).Contents (Elt Ideal)) (x4 : (⟨S1024, .f32⟩ : BufTy).Contents (Elt Ideal)) (x5 : (⟨S1024x2048, .f32⟩ : BufTy).Contents (Elt Ideal)) (x6 : (⟨S1024, .f32⟩ : BufTy).Contents (Elt Ideal)) (x7 : (⟨S1024x2048, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal))
    (p : Fin 4096) (j : Fin 1024) :
    val_main_v37 (F := Ideal) x0 x1 x2 x3 x4 x5 x6 x7 x8 x9 x10 x11 x12 x13 x14 (ix2 p j)
      = Cert.Spec.newC x0 x1 x2 x3 x5 x7 x4 x6 x8 x9 x11 x13 x10 x12 x14 p j := by
  rw [val_main_v37_apply, val_main_v35_apply, val_main_v36_apply, val_main_v34_apply, val_main_v33_apply,
    val_main_v32_apply, v15_read, v14_read, v21_read, v26_read, v31_read]
  rfl

/-- The reference's new hidden state at (p, j). -/
theorem v39_read (x0 x1 x2 : (⟨S4096x1024, .f32⟩ : BufTy).Contents (Elt Ideal)) (x3 : (⟨S1024x2048, .f32⟩ : BufTy).Contents (Elt Ideal)) (x4 : (⟨S1024, .f32⟩ : BufTy).Contents (Elt Ideal)) (x5 : (⟨S1024x2048, .f32⟩ : BufTy).Contents (Elt Ideal)) (x6 : (⟨S1024, .f32⟩ : BufTy).Contents (Elt Ideal)) (x7 : (⟨S1024x2048, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal))
    (p : Fin 4096) (j : Fin 1024) :
    val_main_v39 (F := Ideal) x0 x1 x2 x3 x4 x5 x6 x7 x8 x9 x10 x11 x12 x13 x14 (ix2 p j)
      = Cert.Spec.newH x0 x1 x2 x3 x5 x7 x4 x6 x8 x9 x11 x13 x10 x12 x14 p j := by
  rw [val_main_v39_apply, val_main_v38_apply, v16_read, v37_read]
  rfl

/-- The reference's first result is the cell's new cell state. -/
theorem ref_c (x0 x1 x2 : (⟨S4096x1024, .f32⟩ : BufTy).Contents (Elt Ideal)) (x3 : (⟨S1024x2048, .f32⟩ : BufTy).Contents (Elt Ideal)) (x4 : (⟨S1024, .f32⟩ : BufTy).Contents (Elt Ideal)) (x5 : (⟨S1024x2048, .f32⟩ : BufTy).Contents (Elt Ideal)) (x6 : (⟨S1024, .f32⟩ : BufTy).Contents (Elt Ideal)) (x7 : (⟨S1024x2048, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal)) :
    val_main_v37 (F := Ideal) x0 x1 x2 x3 x4 x5 x6 x7 x8 x9 x10 x11 x12 x13 x14
      = Cert.Spec.arrC x0 x1 x2 x3 x5 x7 x4 x6 x8 x9 x11 x13 x10 x12 x14 := by
  funext i
  obtain ⟨p, j, rfl⟩ : ∃ (p : Fin 4096) (j : Fin 1024), i = ix2 p j := ⟨i 0, i 1, eq_ix2 i⟩
  rw [Cert.Spec.arrC_ix2]
  exact v37_read x0 x1 x2 x3 x4 x5 x6 x7 x8 x9 x10 x11 x12 x13 x14 p j

/-- The reference's second result is the cell's new hidden state. -/
theorem ref_h (x0 x1 x2 : (⟨S4096x1024, .f32⟩ : BufTy).Contents (Elt Ideal)) (x3 : (⟨S1024x2048, .f32⟩ : BufTy).Contents (Elt Ideal)) (x4 : (⟨S1024, .f32⟩ : BufTy).Contents (Elt Ideal)) (x5 : (⟨S1024x2048, .f32⟩ : BufTy).Contents (Elt Ideal)) (x6 : (⟨S1024, .f32⟩ : BufTy).Contents (Elt Ideal)) (x7 : (⟨S1024x2048, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal)) :
    val_main_v39 (F := Ideal) x0 x1 x2 x3 x4 x5 x6 x7 x8 x9 x10 x11 x12 x13 x14
      = Cert.Spec.arrH x0 x1 x2 x3 x5 x7 x4 x6 x8 x9 x11 x13 x10 x12 x14 := by
  funext i
  obtain ⟨p, j, rfl⟩ : ∃ (p : Fin 4096) (j : Fin 1024), i = ix2 p j := ⟨i 0, i 1, eq_ix2 i⟩
  rw [Cert.Spec.arrH_ix2]
  exact v39_read x0 x1 x2 x3 x4 x5 x6 x7 x8 x9 x10 x11 x12 x13 x14 p j

end Cert.ReferenceIdeal.RefValue

end
-- ==== Proof.lean ====
/-
  A fused recurrent cell against its reference, over the extended reals.

  Both programs compute, for batch row p and hidden unit j,
    c'(p, j) = σ(z_f) · c(p, j) + σ(z_i) · tanh (s · (g_x + g_h)),      h'(p, j) = σ(z_o) · tanh c'(p, j),
  where z_i, z_f, z_o are the three gates' pre-activations ∑ₖ [x | h](p, k) · W_g(j, k) + b_g(j) over the 2048 joined
  features, s = ∑ₖ x(p, k) · Wxs(j, k) + bxs(j), g_x = ∑ₖ x(p, k) · Wxg(j, k) + bxg(j), g_h = ∑ₖ h(p, k) · Whg(j, k) + bhg(j),
  and σ is the logistic function (`Spec.newC`, `Spec.newH`).

  The kernel joins the transposed gate matrices into one 2048 × 3072 matrix and the s/g matrices into one 1024 × 2048
  matrix on the host, rounds them to bf16 (the identity on the extended reals), and computes one tile of 128 batch rows
  per grid point with three matrix products; the reference stacks the gate matrices along their rows, transposes, and
  takes one product per linear layer, spelling the logistic function as 1 / (1 + e^(-z)). Entry by entry both are the
  same sums of the same products — no term is regrouped, so the precondition is not used — and the logistic function is
  by definition that quotient.

  The three frames: each kernel program's from the run of its one launch (`Run.frame`: the body stores two whole blocks
  per point and leaves its inputs as they were), the reference's from its run. The idealization rewrites nothing, so
  `preserves` states nothing. `algebraic`: the kernel's run ends with its two result arrays at `Spec.arrH`, `Spec.arrC` of
  the arguments (`Result.run`), the reference's at its composed term, which is the same two functions (`RefValue.ref_h`,
  `RefValue.ref_c`) of arguments that agree.
-/
import proofs.«107532_j54150947668389_1_alg».proof.Defs
import proofs.«107532_j54150947668389_1_alg».proof.Proof.Gen.Kernel
import proofs.«107532_j54150947668389_1_alg».proof.Proof.Gen.KernelIdeal
import proofs.«107532_j54150947668389_1_alg».proof.Proof.Gen.ReferenceIdeal
import proofs.«107532_j54150947668389_1_alg».proof.Proof.Gen.Pre_finite_inputs
import proofs.«107532_j54150947668389_1_alg».proof.Proof.K.Body
import proofs.«107532_j54150947668389_1_alg».proof.Proof.KI.Result
import proofs.«107532_j54150947668389_1_alg».proof.Proof.RefG

noncomputable section

namespace Cert.Proof

open Idealize.ShloMosaic Idealize.ShloMosaic.TcCoe Idealize.SL.Sem

theorem frame_k : Cert.frame_Kernel := fun m ρ _ => Cert.Kernel.Run.frame m ρ

theorem frame_ki : Cert.frame_KernelIdeal := fun m ρ _ => Cert.KernelIdeal.Run.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both runs end with the cell of the arguments in the two result arrays. -/
theorem algebraic : Cert.algebraic_KernelIdeal_ReferenceIdeal := by
  intro m ρ m' ρ' _ hagree
  refine ⟨fun c => Cert.KernelIdeal.Result.GH m c, fun c => Cert.KernelIdeal.Result.GC m c, Cert.KernelIdeal.Result.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13, h14⟩ := hagree c
    rw [Cert.ReferenceIdeal.Read.val_main_v39_eq, Cert.ReferenceIdeal.RefValue.ref_h, h0, h1, h2, h3, h4, h5, h6, h7, h8, h9, h10, h11, h12, h13, h14]
  · obtain ⟨h0, h1, h2, h3, h4, h5, h6, h7, h8, h9, h10, h11, h12, h13, h14⟩ := hagree c
    rw [Cert.ReferenceIdeal.Read.val_main_v37_eq, Cert.ReferenceIdeal.RefValue.ref_c, h0, h1, h2, h3, h4, h5, h6, h7, h8, h9, h10, h11, h12, h13, h14]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
